-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56_1)) (v1 : (c : Dev Cert.KernelIdeal.nD) → Buf (Elt Ideal) ((c.tc : Thread Cert.KernelIdeal.nD Cert.KernelIdeal.τ).loc Cert.KernelIdeal.main_v56_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_1) = v0 c
          ∧ r.2.mem ((c.tc : Thread Cert.KernelIdeal.nD Cert.KernelIdeal.τ).loc Cert.KernelIdeal.main_v56_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 82
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x64, .f32⟩
  | .hbm, ⟨80, _⟩ => ⟨S50000x64, .f32⟩
  | .hbm, ⟨81, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56_0 : Ref sig .tc := ⟨.hbm, 80, rfl⟩
abbrev main_v56_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x64, .f32⟩
  | 109 => ⟨S1x64, .f32⟩
  | 110 => ⟨S50000x64, .f32⟩
  | 111 => ⟨S50000x64, .f32⟩
  | 112 => ⟨S50000x64, .f32⟩
  | 113 => ⟨S50000x64, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S_, .f32⟩
  | 124 => ⟨S50000, .f32⟩
  | 125 => ⟨S50000x1, .f32⟩
  | 126 => ⟨S50000x1, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, over the extended reals, index by index.

  One layer: for a node r and an output feature j,
      lin mean x Wl Wr b (r, j) = (∑ₖ mean(r,k)·Wl(k,j) + ∑ₖ x(r,k)·Wr(k,j)) + b(j),
  the neighbour mean and the node's own features each through its weight matrix, plus the bias; the first two layers
  clamp it below at zero. The last layer's 64 logits of a node are turned into log-probabilities: with M(r) the
  largest logit of node r, logsm h (r, j) = (h(r,j) − M(r)) − log ∑ₖ exp(h(r,k) − M(r)).

  The neighbour mean divides the summed messages by max(count, 1). One program multiplies by the reciprocal
  1 / max(count, 1), the other divides: on the extended reals both are the product with the inverse of a value that is
  at least one, hence not zero (`mul_recip`). Sums of three terms are regrouped by commutativity and associativity
  alone (`add3`), which hold on the extended reals without any finiteness.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The pattern of `1.0` denotes the real one. -/
theorem ofBits_one : Ideal.ofBits .f32 0x3F800000#32 = 1 := by
  simp [Ideal.ofBits, Ideal.ieee, -EReal.coe_mul]; norm_num

/-- The pattern of `-inf` denotes the bottom of the extended reals. -/
theorem ofBits_neg_inf : Ideal.ofBits .f32 0xFF800000#32 = ⊥ := by
  simp [Ideal.ofBits, Ideal.ieee]

/-- Multiplying by the reciprocal of `max c 1` is dividing by it, for every extended real `a` and `c`: the divisor is at
    least one, so it is not zero, and both sides are `a` times its inverse. -/
theorem mul_recip (a c : EReal) : a * Ideal.div 1 (max c 1) = Ideal.div a (max c 1) := by
  have h : max c 1 ≠ 0 := ne_of_gt (lt_of_lt_of_le (by norm_num : (0 : EReal) < 1) (le_max_right c 1))
  unfold Ideal.div
  rw [if_neg h, if_neg h, one_mul]

/-- Three summands regrouped: the bias may be added before or after the second product. -/
theorem add3 (A B C : EReal) : (A + C) + B = (A + B) + C := add_right_comm A C B

/-- One layer before its activation, 128 output features. -/
def lin128 (mean x : (⟨2, ![50000, 128]⟩ : Shape).Idx → EReal) (Wl Wr : (⟨2, ![128, 128]⟩ : Shape).Idx → EReal)
    (b : Fin 128 → EReal) : (⟨2, ![50000, 128]⟩ : Shape).Idx → EReal := fun i =>
  ((∑ k : Fin 128, mean (ix2 (i 0) k) * Wl (ix2 k (i 1))) + (∑ k : Fin 128, x (ix2 (i 0) k) * Wr (ix2 k (i 1)))) + b (i 1)

/-- One hidden layer: the linear part clamped below at zero. -/
def layer128 (mean x : (⟨2, ![50000, 128]⟩ : Shape).Idx → EReal) (Wl Wr : (⟨2, ![128, 128]⟩ : Shape).Idx → EReal)
    (b : Fin 128 → EReal) : (⟨2, ![50000, 128]⟩ : Shape).Idx → EReal := fun i => max (lin128 mean x Wl Wr b i) 0

/-- The last layer's logits, 64 output features. -/
def lin64 (mean x : (⟨2, ![50000, 128]⟩ : Shape).Idx → EReal) (Wl Wr : (⟨2, ![128, 64]⟩ : Shape).Idx → EReal)
    (b : Fin 64 → EReal) : (⟨2, ![50000, 64]⟩ : Shape).Idx → EReal := fun i =>
  ((∑ k : Fin 128, mean (ix2 (i 0) k) * Wl (ix2 k (i 1))) + (∑ k : Fin 128, x (ix2 (i 0) k) * Wr (ix2 k (i 1)))) + b (i 1)

/-- A node's largest logit. -/
def rowMax (h : (⟨2, ![50000, 64]⟩ : Shape).Idx → EReal) (r : Fin 50000) : EReal :=
  (Finset.univ : Finset (Fin 64)).fold max ⊥ (fun k => h (ix2 r k))

/-- Log-probabilities of a node's logits. -/
def logsm (h : (⟨2, ![50000, 64]⟩ : Shape).Idx → EReal) : (⟨2, ![50000, 64]⟩ : Shape).Idx → EReal := fun i =>
  (h i - rowMax h (i 0)) - Ideal.log (∑ k : Fin 64, Ideal.exp (h (ix2 (i 0) k) - rowMax h (i 0)))

end Cert.Sage

end
-- ==== Proof.HostChain.lean ====
/-
  The neighbour aggregation both programs share, as functions of the node features `h` and the edge list `e`.

  Every layer gathers the source node's feature row for each edge (negative source indices are first wrapped by the
  number of nodes) and adds it into the row of the edge's destination node: `agg h e`. The number of edges arriving at a
  node, clamped below at one, is `cmax e`. The neighbour mean is `agg h e` scaled row by row: one program multiplies row r
  by 1 / cmax(r) (`meanMul`), the other divides it by cmax(r) (`meanDiv`). The gather and the scatter-add are never opened:
  the two means agree entry by entry because the scale factors do (`Cert.Sage.mul_recip`).
-/
import proofs.«179301_j15247133901327_1_alg».proof.KernelIdeal
import proofs.«179301_j15247133901327_1_alg».proof.Proof.Gen.KernelIdeal
import proofs.«179301_j15247133901327_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The edges' source nodes: row 0 of the edge list. -/
def srcv (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list. -/
def dstv (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: a negative source index is wrapped by the number of nodes. -/
def gix (e : (⟨S2x800000, .i32⟩ : BufTy).Contents (Elt F)) : (⟨S800000x1, .i32⟩ : BufTy).Contents (Elt F) :=
  broadcastInDim S800000x1 ![0] bcast_S800000_S800000x1_0
    (select (cmpi .slt (srcv e) (broadcastInDim S800000 ![] bcast_S_S800000 (constantI S_ 32 0#32)))
      (addi (srcv e) (broadcastInDim S800000 ![] bcast_S_S800000 (constantI S_ 32 50000#32))) (srcv e))

/-- The scatter's index column: the destination nodes. -/
def six (e : (⟨S2x800000, .i32⟩ : BufTy).Contents (Elt F)) : (⟨S800000x1, .i32⟩ : BufTy).Contents (Elt F) :=
  broadcastInDim S800000x1 ![0] bcast_S800000_S800000x1_0 (dstv e)

/-- The summed messages: every edge's source row added into its destination's row, from zero. -/
def agg (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (six e)
    (Host.gather gather_S50000x128_S800000x1_S800000x128_1_0_n_n_0_1_1128 h (gix e))

/-- The number of edges arriving at each node: a one added into the node's slot for every edge that ends there. -/
def cnt (e : (⟨S2x800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (six e) (broadcastInDim S800000 ![] bcast_S_S800000 (constant S_ .f32 0x3F800000#32))

/-- The all-ones vector over the nodes. -/
def ones : (⟨S50000, .f32⟩ : BufTy).Contents (Elt F) :=
  broadcastInDim S50000 ![] bcast_S_S50000 (constant S_ .f32 0x3F800000#32)

/-- The count clamped below at one. -/
def cmax (e : (⟨S2x800000, .i32⟩ : BufTy).Contents (Elt F)) : (⟨S50000, .f32⟩ : BufTy).Contents (Elt F) :=
  maximumf (cnt e) ones

/-- Its reciprocal, node by node. -/
def invc (e : (⟨S2x800000, .i32⟩ : BufTy).Contents (Elt F)) : (⟨S50000, .f32⟩ : BufTy).Contents (Elt F) :=
  Host.divf ones (cmax e)

/-- A per-node value spread along the 128 features of its row. -/
def col (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The neighbour mean as a product with the reciprocal count. -/
def meanMul (h : (⟨S50000x128, .f32⟩ : BufTy).Contents (Elt F)) (e : (⟨S2x800000, .i32⟩ : BufTy).Contents (Elt F)) :
    (⟨S50000x128, .f32⟩ : BufTy).Contents (Elt F) :=
  mulf (agg h e) (col (invc e))

/-- The neighbour mean as a quotient by the count. -/
def meanDiv (h : (⟨S50000x128, .f32⟩ : BufTy).Contents (Elt F)) (e : (⟨S2x800000, .i32⟩ : BufTy).Contents (Elt F)) :
    (⟨S50000x128, .f32⟩ : BufTy).Contents (Elt F) :=
  Host.divf (agg h e) (col (cmax e))

/-- A spread value read at an entry is the node's value. -/
theorem col_apply (v : (⟨S50000, .f32⟩ : BufTy).Contents (Elt F)) (i : S50000x128.Idx) : col v i = v (ix1 (i 0)) := by
  unfold col
  have e1 := broadcastInDim_apply ![0, 1] bcast_S50000x1_S50000x128_0_1
    (broadcastInDim S50000x1 ![0] bcast_S50000_S50000x1_0 v) i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])
  have e2 := broadcastInDim_apply ![0] bcast_S50000_S50000x1_0 v (ix2 (i 0) (0 : Fin 1)) (ix1 (i 0)) (fun a => match a with
    | ⟨0, _⟩ => by show (i 0).val = if (50000 : Nat) = 1 then 0 else (i 0).val; rw [if_neg (by decide)])
  exact e1.trans e2

end Cert.KernelIdeal.Hand

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KHost.lean ====
/-
  What the host operations between the kernel regions leave in the arrays each region reads, in terms of the launch memory and of the region before.
-/
import proofs.«179301_j15247133901327_1_alg».proof.Proof.Gen.KernelIdeal.Frame
import proofs.«179301_j15247133901327_1_alg».proof.Proof.Spec
import proofs.«179301_j15247133901327_1_alg».proof.Proof.HostChain
import proofs.«179301_j15247133901327_1_alg».proof.Proof.LibMatmulPlain
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-! ## Buffers that no later stretch rewrites, walked back to the launch memory -/

private theorem W1_arg1 (c : Dev nD) : W1 m ρ c (Proc.devRef .tc main_arg1) = m ((c : Thread nD τ).loc main_arg1) := by
  show StableHlo.after hostOps0 (W0 m ρ c) (Proc.devRef .tc main_arg1) = _
  after_results
private theorem W2_arg1 (c : Dev nD) : W2 m ρ c (Proc.devRef .tc main_arg1) = m ((c : Thread nD τ).loc main_arg1) :=
  (W2_of_ne m ρ c main_arg1 (by decide)).trans (W1_arg1 m ρ c)
private theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
private theorem W4_arg1 (c : Dev nD) : W4 m ρ c (Proc.devRef .tc main_arg1) = m ((c : Thread nD τ).loc main_arg1) :=
  (W4_of_ne m ρ c main_arg1 (by decide)).trans (W3_arg1 m ρ c)

private theorem W1_arg5 (c : Dev nD) : W1 m ρ c (Proc.devRef .tc main_arg5) = m ((c : Thread nD τ).loc main_arg5) := by
  show StableHlo.after hostOps0 (W0 m ρ c) (Proc.devRef .tc main_arg5) = _
  after_results
private theorem W2_arg5 (c : Dev nD) : W2 m ρ c (Proc.devRef .tc main_arg5) = m ((c : Thread nD τ).loc main_arg5) :=
  (W2_of_ne m ρ c main_arg5 (by decide)).trans (W1_arg5 m ρ c)

private theorem W1_arg6 (c : Dev nD) : W1 m ρ c (Proc.devRef .tc main_arg6) = m ((c : Thread nD τ).loc main_arg6) := by
  show StableHlo.after hostOps0 (W0 m ρ c) (Proc.devRef .tc main_arg6) = _
  after_results
private theorem W2_arg6 (c : Dev nD) : W2 m ρ c (Proc.devRef .tc main_arg6) = m ((c : Thread nD τ).loc main_arg6) :=
  (W2_of_ne m ρ c main_arg6 (by decide)).trans (W1_arg6 m ρ c)

private theorem W1_arg7 (c : Dev nD) : W1 m ρ c (Proc.devRef .tc main_arg7) = m ((c : Thread nD τ).loc main_arg7) := by
  show StableHlo.after hostOps0 (W0 m ρ c) (Proc.devRef .tc main_arg7) = _
  after_results
private theorem W2_arg7 (c : Dev nD) : W2 m ρ c (Proc.devRef .tc main_arg7) = m ((c : Thread nD τ).loc main_arg7) :=
  (W2_of_ne m ρ c main_arg7 (by decide)).trans (W1_arg7 m ρ c)

private theorem W1_arg8 (c : Dev nD) : W1 m ρ c (Proc.devRef .tc main_arg8) = m ((c : Thread nD τ).loc main_arg8) := by
  show StableHlo.after hostOps0 (W0 m ρ c) (Proc.devRef .tc main_arg8) = _
  after_results
private theorem W2_arg8 (c : Dev nD) : W2 m ρ c (Proc.devRef .tc main_arg8) = m ((c : Thread nD τ).loc main_arg8) :=
  (W2_of_ne m ρ c main_arg8 (by decide)).trans (W1_arg8 m ρ c)
private theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c
private theorem W4_arg8 (c : Dev nD) : W4 m ρ c (Proc.devRef .tc main_arg8) = m ((c : Thread nD τ).loc main_arg8) :=
  (W4_of_ne m ρ c main_arg8 (by decide)).trans (W3_arg8 m ρ c)

private theorem W1_arg9 (c : Dev nD) : W1 m ρ c (Proc.devRef .tc main_arg9) = m ((c : Thread nD τ).loc main_arg9) := by
  show StableHlo.after hostOps0 (W0 m ρ c) (Proc.devRef .tc main_arg9) = _
  after_results
private theorem W2_arg9 (c : Dev nD) : W2 m ρ c (Proc.devRef .tc main_arg9) = m ((c : Thread nD τ).loc main_arg9) :=
  (W2_of_ne m ρ c main_arg9 (by decide)).trans (W1_arg9 m ρ c)
private theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
private theorem W4_arg9 (c : Dev nD) : W4 m ρ c (Proc.devRef .tc main_arg9) = m ((c : Thread nD τ).loc main_arg9) :=
  (W4_of_ne m ρ c main_arg9 (by decide)).trans (W3_arg9 m ρ c)

private theorem W1_arg10 (c : Dev nD) : W1 m ρ c (Proc.devRef .tc main_arg10) = m ((c : Thread nD τ).loc main_arg10) := by
  show StableHlo.after hostOps0 (W0 m ρ c) (Proc.devRef .tc main_arg10) = _
  after_results
private theorem W2_arg10 (c : Dev nD) : W2 m ρ c (Proc.devRef .tc main_arg10) = m ((c : Thread nD τ).loc main_arg10) :=
  (W2_of_ne m ρ c main_arg10 (by decide)).trans (W1_arg10 m ρ c)
private theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
private theorem W4_arg10 (c : Dev nD) : W4 m ρ c (Proc.devRef .tc main_arg10) = m ((c : Thread nD τ).loc main_arg10) :=
  (W4_of_ne m ρ c main_arg10 (by decide)).trans (W3_arg10 m ρ c)

/-! ## The source nodes, the destination nodes and the reciprocal count: computed once by the first stretch, read by all three -/

private theorem W1_src (c : Dev nD) : W1 m ρ c (Proc.devRef .tc main_v1) = srcv (m ((c : Thread nD τ).loc main_arg1)) := by
  show StableHlo.after hostOps0 (W0 m ρ c) (Proc.devRef .tc main_v1) = _
  after_results_simp
  unfold srcv
  rfl
private theorem W2_src (c : Dev nD) : W2 m ρ c (Proc.devRef .tc main_v1) = srcv (m ((c : Thread nD τ).loc main_arg1)) :=
  (W2_of_ne m ρ c main_v1 (by decide)).trans (W1_src m ρ c)
private theorem W3_src (c : Dev nD) : W3 m ρ c (Proc.devRef .tc main_v1) = srcv (m ((c : Thread nD τ).loc main_arg1)) := by
  show StableHlo.after hostOps1 (W2 m ρ c) (Proc.devRef .tc main_v1) = _
  after_results
  exact W2_src m ρ c
private theorem W4_src (c : Dev nD) : W4 m ρ c (Proc.devRef .tc main_v1) = srcv (m ((c : Thread nD τ).loc main_arg1)) :=
  (W4_of_ne m ρ c main_v1 (by decide)).trans (W3_src m ρ c)

private theorem W1_dst (c : Dev nD) : W1 m ρ c (Proc.devRef .tc main_v3) = dstv (m ((c : Thread nD τ).loc main_arg1)) := by
  show StableHlo.after hostOps0 (W0 m ρ c) (Proc.devRef .tc main_v3) = _
  after_results_simp
  unfold dstv
  rfl
private theorem W2_dst (c : Dev nD) : W2 m ρ c (Proc.devRef .tc main_v3) = dstv (m ((c : Thread nD τ).loc main_arg1)) :=
  (W2_of_ne m ρ c main_v3 (by decide)).trans (W1_dst m ρ c)
private theorem W3_dst (c : Dev nD) : W3 m ρ c (Proc.devRef .tc main_v3) = dstv (m ((c : Thread nD τ).loc main_arg1)) := by
  show StableHlo.after hostOps1 (W2 m ρ c) (Proc.devRef .tc main_v3) = _
  after_results
  exact W2_dst m ρ c
private theorem W4_dst (c : Dev nD) : W4 m ρ c (Proc.devRef .tc main_v3) = dstv (m ((c : Thread nD τ).loc main_arg1)) :=
  (W4_of_ne m ρ c main_v3 (by decide)).trans (W3_dst m ρ c)

private theorem W1_inv (c : Dev nD) : W1 m ρ c (Proc.devRef .tc main_v11) = invc (m ((c : Thread nD τ).loc main_arg1)) := by
  show StableHlo.after hostOps0 (W0 m ρ c) (Proc.devRef .tc main_v11) = _
  after_results_simp
  unfold invc cmax cnt ones six dstv
  rfl
private theorem W2_inv (c : Dev nD) : W2 m ρ c (Proc.devRef .tc main_v11) = invc (m ((c : Thread nD τ).loc main_arg1)) :=
  (W2_of_ne m ρ c main_v11 (by decide)).trans (W1_inv m ρ c)
private theorem W3_inv (c : Dev nD) : W3 m ρ c (Proc.devRef .tc main_v11) = invc (m ((c : Thread nD τ).loc main_arg1)) := by
  show StableHlo.after hostOps1 (W2 m ρ c) (Proc.devRef .tc main_v11) = _
  after_results
  exact W2_inv m ρ c
private theorem W4_inv (c : Dev nD) : W4 m ρ c (Proc.devRef .tc main_v11) = invc (m ((c : Thread nD τ).loc main_arg1)) :=
  (W4_of_ne m ρ c main_v11 (by decide)).trans (W3_inv m ρ c)

/-! ## Region 0's arrays at its entry -/
theorem V1_mean (c : Dev nD) : V1 m ρ c main_v24 = meanMul (m ((c : Thread nD τ).loc main_arg0)) (m ((c : Thread nD τ).loc main_arg1)) := by
  show StableHlo.after hostOps0 (W0 m ρ c) (Proc.devRef .tc main_v24) = _
  after_results_simp
  unfold meanMul agg col invc cmax cnt ones six gix srcv dstv
  rfl
theorem V1_x (c : Dev nD) : V1 m ρ c main_arg0 = m ((c : Thread nD τ).loc main_arg0) := by
  show StableHlo.after hostOps0 (W0 m ρ c) (Proc.devRef .tc main_arg0) = _
  after_results
theorem V1_wl (c : Dev nD) : V1 m ρ c main_arg2 = m ((c : Thread nD τ).loc main_arg2) := by
  show StableHlo.after hostOps0 (W0 m ρ c) (Proc.devRef .tc main_arg2) = _
  after_results
theorem V1_wr (c : Dev nD) : V1 m ρ c main_arg3 = m ((c : Thread nD τ).loc main_arg3) := by
  show StableHlo.after hostOps0 (W0 m ρ c) (Proc.devRef .tc main_arg3) = _
  after_results
theorem V1_bias (c : Dev nD) : V1 m ρ c main_v25 = shapeCast _ (m ((c : Thread nD τ).loc main_arg4)) shapeCasts_S128_S1x128 := by
  show StableHlo.after hostOps0 (W0 m ρ c) (Proc.devRef .tc main_v25) = _
  after_results
  rfl

/-! ## Region 1's arrays at its entry (`W2` is what region 0 left) -/
theorem V3_mean (c : Dev nD) : V3 m ρ c main_v39 = meanMul (W2 m ρ c (Proc.devRef .tc main_v26)) (m ((c : Thread nD τ).loc main_arg1)) := by
  show StableHlo.after hostOps1 (W2 m ρ c) (Proc.devRef .tc main_v39) = _
  after_results_simp
  rw [W2_src m ρ c, W2_dst m ρ c, W2_inv m ρ c]
  unfold meanMul agg col six gix
  rfl
theorem V3_x (c : Dev nD) : V3 m ρ c main_v26 = W2 m ρ c (Proc.devRef .tc main_v26) := by
  show StableHlo.after hostOps1 (W2 m ρ c) (Proc.devRef .tc main_v26) = _
  after_results
theorem V3_wl (c : Dev nD) : V3 m ρ c main_arg5 = m ((c : Thread nD τ).loc main_arg5) := by
  show StableHlo.after hostOps1 (W2 m ρ c) (Proc.devRef .tc main_arg5) = _
  after_results
  exact W2_arg5 m ρ c
theorem V3_wr (c : Dev nD) : V3 m ρ c main_arg6 = m ((c : Thread nD τ).loc main_arg6) := by
  show StableHlo.after hostOps1 (W2 m ρ c) (Proc.devRef .tc main_arg6) = _
  after_results
  exact W2_arg6 m ρ c
theorem V3_bias (c : Dev nD) : V3 m ρ c main_v40 = shapeCast _ (m ((c : Thread nD τ).loc main_arg7)) shapeCasts_S128_S1x128 := by
  show StableHlo.after hostOps1 (W2 m ρ c) (Proc.devRef .tc main_v40) = _
  after_results
  rw [W2_arg7 m ρ c]
  rfl

/-! ## Region 2's arrays at its entry (`W4` is what region 1 left) -/
theorem V5_mean (c : Dev nD) : V5 m ρ c main_v54 = meanMul (W4 m ρ c (Proc.devRef .tc main_v41)) (m ((c : Thread nD τ).loc main_arg1)) := by
  show StableHlo.after hostOps2 (W4 m ρ c) (Proc.devRef .tc main_v54) = _
  after_results_simp
  rw [W4_src m ρ c, W4_dst m ρ c, W4_inv m ρ c]
  unfold meanMul agg col six gix
  rfl
theorem V5_x (c : Dev nD) : V5 m ρ c main_v41 = W4 m ρ c (Proc.devRef .tc main_v41) := by
  show StableHlo.after hostOps2 (W4 m ρ c) (Proc.devRef .tc main_v41) = _
  after_results
theorem V5_wl (c : Dev nD) : V5 m ρ c main_arg8 = m ((c : Thread nD τ).loc main_arg8) := by
  show StableHlo.after hostOps2 (W4 m ρ c) (Proc.devRef .tc main_arg8) = _
  after_results
  exact W4_arg8 m ρ c
theorem V5_wr (c : Dev nD) : V5 m ρ c main_arg9 = m ((c : Thread nD τ).loc main_arg9) := by
  show StableHlo.after hostOps2 (W4 m ρ c) (Proc.devRef .tc main_arg9) = _
  after_results
  exact W4_arg9 m ρ c
theorem V5_bias (c : Dev nD) : V5 m ρ c main_v55 = shapeCast _ (m ((c : Thread nD τ).loc main_arg10)) shapeCasts_S64_S1x64 := by
  show StableHlo.after hostOps2 (W4 m ρ c) (Proc.devRef .tc main_v55) = _
  after_results
  rw [W4_arg10 m ρ c]
  rfl

/-! ## What each region left is its proof data's final array -/
theorem W2_out (c : Dev nD) : W2 m ρ c (Proc.devRef .tc main_v26) = (dat0 (V1 m ρ) c).arrAt 5 cfg0.N := W2_arr m ρ c 5
theorem W4_out (c : Dev nD) : W4 m ρ c (Proc.devRef .tc main_v41) = (dat1 (V3 m ρ) c).arrAt 5 cfg1.N := W4_arr m ρ c 5
theorem W6_logits (c : Dev nD) : W6 m ρ c (Proc.devRef .tc main_v56_0) = (dat2 (V5 m ρ) c).arrAt 5 cfg2.N := W6_arr m ρ c 5
theorem W6_logprob (c : Dev nD) : W6 m ρ c (Proc.devRef .tc main_v56_1) = (dat2 (V5 m ρ) c).arrAt 6 cfg2.N := W6_arr m ρ c 6

end Cert.KernelIdeal.Hand

end
-- ==== Proof.Region01.lean ====
/-
  What the first two kernel regions leave in their result arrays, as one function of the arrays they find at entry.

  Both regions run the same arithmetic on a grid of ten points. Point t handles node rows 5000·t … 5000·t + 4999: it reads
  those rows of the neighbour mean and of the node features, the two 128 × 128 weight matrices and the bias row whole, and
  stores, at row p and column q of its block,
      max ((∑ₖ mean(5000·t + p, k)·Wl(k, q) + ∑ₖ x(5000·t + p, k)·Wr(k, q)) + b(q)) 0.
  The rounding of the operands to a narrower float format is the identity on the extended reals, each product is
  accumulated into zeros, and the bias row is repeated along the rows. Every point writes its block back, and the ten
  blocks tile the 50000 rows, so the result array ends as the hidden layer of the entry arrays at every index.
-/
import proofs.«179301_j15247133901327_1_alg».proof.Proof.Gen.KernelIdeal.Frame
import proofs.«179301_j15247133901327_1_alg».proof.Proof.Spec
import proofs.«179301_j15247133901327_1_alg».proof.Proof.HostChain
import proofs.«179301_j15247133901327_1_alg».proof.Proof.LibMatmulPlain
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offsets of a whole-block access, however the zeros are spelt. -/
theorem hz : (![0, 0] : Fin 2 → Nat) = fun _ => 0 := funext fun a => by fin_cases a <;> rfl

/-! ## One grid point's arithmetic, entry by entry -/

/-- The kernel's contraction pattern is the plain one: an [M, K] array by a [K, N] array, the left operand contracted
    on its second axis, the right on its first, no batch axes. -/
theorem dot_plain : dot_S5000x128_S128x128_S5000x128_1_0_0_1_n_n = DotDims.plain 5000 128 128 := rfl

/-- Region 0's stored block at entry (p, q): the two products' sums over the 128 features, added, plus the bias of
    column q, clamped below at zero. The change of float format is the identity on the extended reals, the two
    accumulators are zero, and the bias row is repeated along the 5000 rows. -/
theorem pay0_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = max ((∑ k : Fin 128, x0 (ix2 p k) * x2 (ix2 k q) + ∑ k : Fin 128, x1 (ix2 p k) * x3 (ix2 k q)) + x4 (ix2 0 q)) 0 := by
  unfold k0_pay1
  rw [dot_plain]
  refine (maximumf_apply _ _ (ix2 p q)).trans ?_
  refine congrArg₂ max ?_ Ideal.ofBits_zero_f32
  refine (addf_apply _ _ (ix2 p q)).trans ?_
  refine congrArg₂ (· + ·) ?_ ?_
  · refine (addf_apply _ _ (ix2 p q)).trans ?_
    refine congrArg₂ (· + ·) ?_ ?_
    · refine (MatmulPlain.matmul_zero_apply none _ _ p q).trans ?_
      rw [shapeCast_self]
      rfl
    · refine (MatmulPlain.matmul_zero_apply none _ _ p q).trans ?_
      rfl
  · rw [shapeCast_self]
    exact broadcastTo_apply x4 broadcasts_S1x128_S5000x128 (ix2 p q) (ix2 0 q) (fun a => by
      match a with
      | ⟨0, _⟩ => rfl
      | ⟨1, _⟩ => rfl)

/-- Region 1's stored block at entry (p, q): the same arithmetic as region 0's; here both row-blocked operands pass
    through a reshape to their own shape, which is the identity. -/
theorem pay1_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q)
      = max ((∑ k : Fin 128, x0 (ix2 p k) * x2 (ix2 k q) + ∑ k : Fin 128, x1 (ix2 p k) * x3 (ix2 k q)) + x4 (ix2 0 q)) 0 := by
  unfold k1_pay1
  rw [dot_plain]
  refine (maximumf_apply _ _ (ix2 p q)).trans ?_
  refine congrArg₂ max ?_ Ideal.ofBits_zero_f32
  refine (addf_apply _ _ (ix2 p q)).trans ?_
  refine congrArg₂ (· + ·) ?_ ?_
  · refine (addf_apply _ _ (ix2 p q)).trans ?_
    refine congrArg₂ (· + ·) ?_ ?_
    · refine (MatmulPlain.matmul_zero_apply none _ _ p q).trans ?_
      rw [shapeCast_self]
      rfl
    · refine (MatmulPlain.matmul_zero_apply none _ _ p q).trans ?_
      rw [shapeCast_self]
      rfl
  · rw [shapeCast_self]
    exact broadcastTo_apply x4 broadcasts_S1x128_S5000x128 (ix2 p q) (ix2 0 q) (fun a => by
      match a with
      | ⟨0, _⟩ => rfl
      | ⟨1, _⟩ => rfl)
/-! ## Region 0: the blocks a grid point reads and writes -/

/-- The six block-index maps of region 0 over its ten grid points: the neighbour mean, the node features and the result
    move with the point along the rows (block t holds rows 5000·t … 5000·t + 4999); the two weight matrices and the bias
    are one block each. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the neighbour mean is row 5000·t + p of the array. -/
theorem blk0_0 (c : Dev nD) (t : Fin cfg0.N) (p : Fin 5000) (k : Fin 128) (r : Fin 50000) (hr : r.val = t.val * 5000 + p.val) :
    (iblk0 V c 0 t : Vec Ideal S5000x128 .f32) (ix2 p k) = V c main_v24 (ix2 r k) := by
  show V c main_v24 (((cfg0.win 0).blk t).view.emb (ix2 p k)) = V c main_v24 (ix2 r k)
  refine congrArg (V c main_v24) (funext fun a => Fin.ext ?_)
  match a with
  | ⟨0, _⟩ =>
    show win0_0.index t (0 : Fin 2) * 5000 + 1 * p.val = r.val
    rw [(idx0 t).1]; omega
  | ⟨1, _⟩ =>
    show win0_0.index t (1 : Fin 2) * 128 + 1 * k.val = k.val
    rw [(idx0 t).2.1]; omega

/-- Row p of point t's block of the node features is row 5000·t + p of the array. -/
theorem blk0_1 (c : Dev nD) (t : Fin cfg0.N) (p : Fin 5000) (k : Fin 128) (r : Fin 50000) (hr : r.val = t.val * 5000 + p.val) :
    (iblk0 V c 1 t : Vec Ideal S5000x128 .f32) (ix2 p k) = V c main_arg0 (ix2 r k) := by
  show V c main_arg0 (((cfg0.win 1).blk t).view.emb (ix2 p k)) = V c main_arg0 (ix2 r k)
  refine congrArg (V c main_arg0) (funext fun a => Fin.ext ?_)
  match a with
  | ⟨0, _⟩ =>
    show win0_1.index t (0 : Fin 2) * 5000 + 1 * p.val = r.val
    rw [(idx0 t).2.2.1]; omega
  | ⟨1, _⟩ =>
    show win0_1.index t (1 : Fin 2) * 128 + 1 * k.val = k.val
    rw [(idx0 t).2.2.2.1]; omega

/-- The first weight matrix's one block is the matrix, at every point. -/
theorem blk0_2 (c : Dev nD) (t : Fin cfg0.N) (k q : Fin 128) :
    (iblk0 V c 2 t : Vec Ideal S128x128 .f32) (ix2 k q) = V c main_arg2 (ix2 k q) := by
  show V c main_arg2 (((cfg0.win 2).blk t).view.emb (ix2 k q)) = V c main_arg2 (ix2 k q)
  refine congrArg (V c main_arg2) (funext fun a => Fin.ext ?_)
  match a with
  | ⟨0, _⟩ =>
    show win0_2.index t (0 : Fin 2) * 128 + 1 * k.val = k.val
    rw [(idx0 t).2.2.2.2.1]; omega
  | ⟨1, _⟩ =>
    show win0_2.index t (1 : Fin 2) * 128 + 1 * q.val = q.val
    rw [(idx0 t).2.2.2.2.2.1]; omega

/-- The second weight matrix's one block is the matrix, at every point. -/
theorem blk0_3 (c : Dev nD) (t : Fin cfg0.N) (k q : Fin 128) :
    (iblk0 V c 3 t : Vec Ideal S128x128 .f32) (ix2 k q) = V c main_arg3 (ix2 k q) := by
  show V c main_arg3 (((cfg0.win 3).blk t).view.emb (ix2 k q)) = V c main_arg3 (ix2 k q)
  refine congrArg (V c main_arg3) (funext fun a => Fin.ext ?_)
  match a with
  | ⟨0, _⟩ =>
    show win0_3.index t (0 : Fin 2) * 128 + 1 * k.val = k.val
    rw [(idx0 t).2.2.2.2.2.2.1]; omega
  | ⟨1, _⟩ =>
    show win0_3.index t (1 : Fin 2) * 128 + 1 * q.val = q.val
    rw [(idx0 t).2.2.2.2.2.2.2.1]; omega

/-- The bias row's one block is the row, at every point. -/
theorem blk0_4 (c : Dev nD) (t : Fin cfg0.N) (q : Fin 128) :
    (iblk0 V c 4 t : Vec Ideal S1x128 .f32) (ix2 (0 : Fin 1) q) = V c main_v25 (ix2 (0 : Fin 1) q) := by
  show V c main_v25 (((cfg0.win 4).blk t).view.emb (ix2 (0 : Fin 1) q)) = V c main_v25 (ix2 (0 : Fin 1) q)
  refine congrArg (V c main_v25) (funext fun a => Fin.ext ?_)
  match a with
  | ⟨0, _⟩ =>
    show win0_4.index t (0 : Fin 2) * 1 + 1 * 0 = 0
    rw [(idx0 t).2.2.2.2.2.2.2.2.1]
  | ⟨1, _⟩ =>
    show win0_4.index t (1 : Fin 2) * 128 + 1 * q.val = q.val
    rw [(idx0 t).2.2.2.2.2.2.2.2.2.1]; omega

/-- Entry (p, q) of point t's result block sits at row 5000·t + p, column q of the result array. -/
theorem emb0_5 (t : Fin cfg0.N) (p : Fin 5000) (q : Fin 128) (r : Fin 50000) (hr : r.val = t.val * 5000 + p.val) :
    ((cfg0.win 5).blk t).view.emb (ix2 p q) = (ix2 r q : (⟨2, ![50000, 128]⟩ : Shape).Idx) := by
  funext a; apply Fin.ext
  match a with
  | ⟨0, _⟩ =>
    show win0_5.index t (0 : Fin 2) * 5000 + 1 * p.val = r.val
    rw [(idx0 t).2.2.2.2.2.2.2.2.2.2.1]; omega
  | ⟨1, _⟩ =>
    show win0_5.index t (1 : Fin 2) * 128 + 1 * q.val = q.val
    rw [(idx0 t).2.2.2.2.2.2.2.2.2.2.2]; omega

/-- What point t writes back is block t of the hidden layer of the arrays the region finds: entry (p, q) of the stored
    block is the layer at row 5000·t + p, each input block read at the rows the result's block names. -/
theorem flushed0_eq (c : Dev nD) (t : Fin cfg0.N) :
    (dat0 (F := Ideal) V c).flushed 5 t = ((cfg0.win 5).blk t).view.read (Elt Ideal)
      (Cert.Sage.layer128 (V c main_v24) (V c main_arg0) (V c main_arg2) (V c main_arg3) (fun j => V c main_v25 (ix2 (0 : Fin 1) j))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hlt : t.val * 5000 + p.val < 50000 := by have := t.isLt; have := p.isLt; have hN : cfg0.N = 10 := rfl; omega
  show k0_pay1 (iblk0 V c 0 t) (iblk0 V c 1 t) (iblk0 V c 2 t) (iblk0 V c 3 t) (iblk0 V c 4 t) (ix2 p q)
    = Cert.Sage.layer128 (V c main_v24) (V c main_arg0) (V c main_arg2) (V c main_arg3) (fun j => V c main_v25 (ix2 (0 : Fin 1) j)) (((cfg0.win 5).blk t).view.emb (ix2 p q))
  rw [emb0_5 t p q ⟨t.val * 5000 + p.val, hlt⟩ rfl]
  refine (pay0_apply (iblk0 V c 0 t) (iblk0 V c 1 t) (iblk0 V c 2 t) (iblk0 V c 3 t) (iblk0 V c 4 t) p q).trans ?_
  exact congrArg₂ max (congrArg₂ (· + ·) (congrArg₂ (· + ·)
      (Finset.sum_congr rfl fun k _ => congrArg₂ (· * ·) (blk0_0 V c t p k ⟨t.val * 5000 + p.val, hlt⟩ rfl) (blk0_2 V c t k q))
      (Finset.sum_congr rfl fun k _ => congrArg₂ (· * ·) (blk0_1 V c t p k ⟨t.val * 5000 + p.val, hlt⟩ rfl) (blk0_3 V c t k q)))
      (blk0_4 V c t q)) rfl

/-- An index of the result array lies in point t's block iff each coordinate lies in the block's range on its axis. -/
theorem mem_blk0 (t : Fin cfg0.N) (i : (⟨2, ![50000, 128]⟩ : Shape).Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten blocks cover the result array: index (r, j) lies in the block of point r / 5000, and every point writes
    its block back. -/
theorem cover0 (i : (⟨2, ![50000, 128]⟩ : Shape).Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := rfl
  have ht : (i 0).val / 5000 < cfg0.N := by omega
  have e0 : win0_5.index ⟨(i 0).val / 5000, ht⟩ (0 : Fin 2) = (i 0).val / 5000 := (idx0 ⟨(i 0).val / 5000, ht⟩).2.2.2.2.2.2.2.2.2.2.1
  have e1 : win0_5.index ⟨(i 0).val / 5000, ht⟩ (1 : Fin 2) = 0 := (idx0 ⟨(i 0).val / 5000, ht⟩).2.2.2.2.2.2.2.2.2.2.2
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- Region 0's result array after the region: the hidden layer of the arrays the region finds. -/
theorem arr0_out (c : Dev nD) :
    (dat0 (F := Ideal) V c).arrAt 5 cfg0.N
      = Cert.Sage.layer128 (V c main_v24) (V c main_arg0) (V c main_arg2) (V c main_arg3) (fun j => V c main_v25 (ix2 (0 : Fin 1) j)) :=
  (dat0 (F := Ideal) V c).arrAt_eq_of_cover 5 _ (fun t _ => flushed0_eq V c t) (fun i => cover0 i)
/-! ## Region 1: the blocks a grid point reads and writes -/

/-- The six block-index maps of region 1 over its ten grid points: the neighbour mean, the nodes' own features at this layer and the result
    move with the point along the rows (block t holds rows 5000·t … 5000·t + 4999); the two weight matrices and the bias
    are one block each. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the neighbour mean is row 5000·t + p of the array. -/
theorem blk1_0 (c : Dev nD) (t : Fin cfg1.N) (p : Fin 5000) (k : Fin 128) (r : Fin 50000) (hr : r.val = t.val * 5000 + p.val) :
    (iblk1 V c 0 t : Vec Ideal S5000x128 .f32) (ix2 p k) = V c main_v39 (ix2 r k) := by
  show V c main_v39 (((cfg1.win 0).blk t).view.emb (ix2 p k)) = V c main_v39 (ix2 r k)
  refine congrArg (V c main_v39) (funext fun a => Fin.ext ?_)
  match a with
  | ⟨0, _⟩ =>
    show win1_0.index t (0 : Fin 2) * 5000 + 1 * p.val = r.val
    rw [(idx1 t).1]; omega
  | ⟨1, _⟩ =>
    show win1_0.index t (1 : Fin 2) * 128 + 1 * k.val = k.val
    rw [(idx1 t).2.1]; omega

/-- Row p of point t's block of the nodes' own features at this layer is row 5000·t + p of the array. -/
theorem blk1_1 (c : Dev nD) (t : Fin cfg1.N) (p : Fin 5000) (k : Fin 128) (r : Fin 50000) (hr : r.val = t.val * 5000 + p.val) :
    (iblk1 V c 1 t : Vec Ideal S5000x128 .f32) (ix2 p k) = V c main_v26 (ix2 r k) := by
  show V c main_v26 (((cfg1.win 1).blk t).view.emb (ix2 p k)) = V c main_v26 (ix2 r k)
  refine congrArg (V c main_v26) (funext fun a => Fin.ext ?_)
  match a with
  | ⟨0, _⟩ =>
    show win1_1.index t (0 : Fin 2) * 5000 + 1 * p.val = r.val
    rw [(idx1 t).2.2.1]; omega
  | ⟨1, _⟩ =>
    show win1_1.index t (1 : Fin 2) * 128 + 1 * k.val = k.val
    rw [(idx1 t).2.2.2.1]; omega

/-- The first weight matrix's one block is the matrix, at every point. -/
theorem blk1_2 (c : Dev nD) (t : Fin cfg1.N) (k q : Fin 128) :
    (iblk1 V c 2 t : Vec Ideal S128x128 .f32) (ix2 k q) = V c main_arg5 (ix2 k q) := by
  show V c main_arg5 (((cfg1.win 2).blk t).view.emb (ix2 k q)) = V c main_arg5 (ix2 k q)
  refine congrArg (V c main_arg5) (funext fun a => Fin.ext ?_)
  match a with
  | ⟨0, _⟩ =>
    show win1_2.index t (0 : Fin 2) * 128 + 1 * k.val = k.val
    rw [(idx1 t).2.2.2.2.1]; omega
  | ⟨1, _⟩ =>
    show win1_2.index t (1 : Fin 2) * 128 + 1 * q.val = q.val
    rw [(idx1 t).2.2.2.2.2.1]; omega

/-- The second weight matrix's one block is the matrix, at every point. -/
theorem blk1_3 (c : Dev nD) (t : Fin cfg1.N) (k q : Fin 128) :
    (iblk1 V c 3 t : Vec Ideal S128x128 .f32) (ix2 k q) = V c main_arg6 (ix2 k q) := by
  show V c main_arg6 (((cfg1.win 3).blk t).view.emb (ix2 k q)) = V c main_arg6 (ix2 k q)
  refine congrArg (V c main_arg6) (funext fun a => Fin.ext ?_)
  match a with
  | ⟨0, _⟩ =>
    show win1_3.index t (0 : Fin 2) * 128 + 1 * k.val = k.val
    rw [(idx1 t).2.2.2.2.2.2.1]; omega
  | ⟨1, _⟩ =>
    show win1_3.index t (1 : Fin 2) * 128 + 1 * q.val = q.val
    rw [(idx1 t).2.2.2.2.2.2.2.1]; omega

/-- The bias row's one block is the row, at every point. -/
theorem blk1_4 (c : Dev nD) (t : Fin cfg1.N) (q : Fin 128) :
    (iblk1 V c 4 t : Vec Ideal S1x128 .f32) (ix2 (0 : Fin 1) q) = V c main_v40 (ix2 (0 : Fin 1) q) := by
  show V c main_v40 (((cfg1.win 4).blk t).view.emb (ix2 (0 : Fin 1) q)) = V c main_v40 (ix2 (0 : Fin 1) q)
  refine congrArg (V c main_v40) (funext fun a => Fin.ext ?_)
  match a with
  | ⟨0, _⟩ =>
    show win1_4.index t (0 : Fin 2) * 1 + 1 * 0 = 0
    rw [(idx1 t).2.2.2.2.2.2.2.2.1]
  | ⟨1, _⟩ =>
    show win1_4.index t (1 : Fin 2) * 128 + 1 * q.val = q.val
    rw [(idx1 t).2.2.2.2.2.2.2.2.2.1]; omega

/-- Entry (p, q) of point t's result block sits at row 5000·t + p, column q of the result array. -/
theorem emb1_5 (t : Fin cfg1.N) (p : Fin 5000) (q : Fin 128) (r : Fin 50000) (hr : r.val = t.val * 5000 + p.val) :
    ((cfg1.win 5).blk t).view.emb (ix2 p q) = (ix2 r q : (⟨2, ![50000, 128]⟩ : Shape).Idx) := by
  funext a; apply Fin.ext
  match a with
  | ⟨0, _⟩ =>
    show win1_5.index t (0 : Fin 2) * 5000 + 1 * p.val = r.val
    rw [(idx1 t).2.2.2.2.2.2.2.2.2.2.1]; omega
  | ⟨1, _⟩ =>
    show win1_5.index t (1 : Fin 2) * 128 + 1 * q.val = q.val
    rw [(idx1 t).2.2.2.2.2.2.2.2.2.2.2]; omega

/-- What point t writes back is block t of the hidden layer of the arrays the region finds: entry (p, q) of the stored
    block is the layer at row 5000·t + p, each input block read at the rows the result's block names. -/
theorem flushed1_eq (c : Dev nD) (t : Fin cfg1.N) :
    (dat1 (F := Ideal) V c).flushed 5 t = ((cfg1.win 5).blk t).view.read (Elt Ideal)
      (Cert.Sage.layer128 (V c main_v39) (V c main_v26) (V c main_arg5) (V c main_arg6) (fun j => V c main_v40 (ix2 (0 : Fin 1) j))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  have hlt : t.val * 5000 + p.val < 50000 := by have := t.isLt; have := p.isLt; have hN : cfg1.N = 10 := rfl; omega
  show k1_pay1 (iblk1 V c 0 t) (iblk1 V c 1 t) (iblk1 V c 2 t) (iblk1 V c 3 t) (iblk1 V c 4 t) (ix2 p q)
    = Cert.Sage.layer128 (V c main_v39) (V c main_v26) (V c main_arg5) (V c main_arg6) (fun j => V c main_v40 (ix2 (0 : Fin 1) j)) (((cfg1.win 5).blk t).view.emb (ix2 p q))
  rw [emb1_5 t p q ⟨t.val * 5000 + p.val, hlt⟩ rfl]
  refine (pay1_apply (iblk1 V c 0 t) (iblk1 V c 1 t) (iblk1 V c 2 t) (iblk1 V c 3 t) (iblk1 V c 4 t) p q).trans ?_
  exact congrArg₂ max (congrArg₂ (· + ·) (congrArg₂ (· + ·)
      (Finset.sum_congr rfl fun k _ => congrArg₂ (· * ·) (blk1_0 V c t p k ⟨t.val * 5000 + p.val, hlt⟩ rfl) (blk1_2 V c t k q))
      (Finset.sum_congr rfl fun k _ => congrArg₂ (· * ·) (blk1_1 V c t p k ⟨t.val * 5000 + p.val, hlt⟩ rfl) (blk1_3 V c t k q)))
      (blk1_4 V c t q)) rfl

/-- An index of the result array lies in point t's block iff each coordinate lies in the block's range on its axis. -/
theorem mem_blk1 (t : Fin cfg1.N) (i : (⟨2, ![50000, 128]⟩ : Shape).Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The ten blocks cover the result array: index (r, j) lies in the block of point r / 5000, and every point writes
    its block back. -/
theorem cover1 (i : (⟨2, ![50000, 128]⟩ : Shape).Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := rfl
  have ht : (i 0).val / 5000 < cfg1.N := by omega
  have e0 : win1_5.index ⟨(i 0).val / 5000, ht⟩ (0 : Fin 2) = (i 0).val / 5000 := (idx1 ⟨(i 0).val / 5000, ht⟩).2.2.2.2.2.2.2.2.2.2.1
  have e1 : win1_5.index ⟨(i 0).val / 5000, ht⟩ (1 : Fin 2) = 0 := (idx1 ⟨(i 0).val / 5000, ht⟩).2.2.2.2.2.2.2.2.2.2.2
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- Region 1's result array after the region: the hidden layer of the arrays the region finds. -/
theorem arr1_out (c : Dev nD) :
    (dat1 (F := Ideal) V c).arrAt 5 cfg1.N
      = Cert.Sage.layer128 (V c main_v39) (V c main_v26) (V c main_arg5) (V c main_arg6) (fun j => V c main_v40 (ix2 (0 : Fin 1) j)) :=
  (dat1 (F := Ideal) V c).arrAt_eq_of_cover 5 _ (fun t _ => flushed1_eq V c t) (fun i => cover1 i)

end Cert.KernelIdeal.Hand

end
-- ==== Proof.Region2.lean ====
/-
  What the last kernel region leaves in its two result arrays, as functions of the arrays it finds at entry.
-/
import proofs.«179301_j15247133901327_1_alg».proof.Proof.Gen.KernelIdeal.Frame
import proofs.«179301_j15247133901327_1_alg».proof.Proof.Spec
import proofs.«179301_j15247133901327_1_alg».proof.Proof.HostChain
import proofs.«179301_j15247133901327_1_alg».proof.Proof.LibMatmulPlain
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The kernel's contraction record is the plain matrix product's. -/
private theorem dot_plain2 : dot_S5000x128_S128x64_S5000x64_1_0_0_1_n_n = DotDims.plain 5000 128 64 := rfl

/-- The logits payload at an entry. -/
private theorem logits_pay_apply2 (x0 x1 : Vec Ideal S5000x128 .f32) (x2 x3 : Vec Ideal S128x64 .f32) (x4 : Vec Ideal S1x64 .f32)
    (p : Fin 5000) (q : Fin 64) :
    k2_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k2_pay1
  simp only [shapeCast_self]
  rw [dot_plain2]
  refine (addf_apply _ _ _).trans ?_
  refine congrArg₂ (· + ·) ?_ ?_
  · refine (addf_apply _ _ _).trans ?_
    refine congrArg₂ (· + ·) ?_ ?_
    · exact MatmulPlain.matmul_zero_apply none _ _ p q
    · exact MatmulPlain.matmul_zero_apply none _ _ p q
  · exact broadcastTo_1b_ab_apply _ _ p q

/-- A vector of length a viewed as a column [a, 1] reads, at (p, u), the vector at p. -/
private theorem col_cast_apply2 {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along rows to [a, b] reads, at (p, c), the column at p. -/
private theorem col_bcast_apply2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's maximum: the lane reduction by max from −∞ at row p is the fold of max from ⊥ over the row's 64 entries. -/
private theorem rowmax_apply2 (h : FVec Ideal S5000x64 .f32) (p : Fin 5000) :
    multiReduction (F := Ideal) .maximumf [1] S5000 h 0xFF800000#32 reduces_S5000x64_S5000 (.inl rfl) rfl (ix1 p)
      = (Finset.univ : Finset (Fin 64)).fold max ⊥ (fun k => h (ix2 p k)) := by
  refine (Ideal.multiReduction_maximumf_single h _ reduces_S5000x64_S5000 (.inl rfl) rfl (ix1 p)).trans ?_
  show (Finset.univ : Finset (Fin 64)).fold max (Ideal.ofBits .f32 0xFF800000#32) _ = _
  rw [Cert.Sage.ofBits_neg_inf]
  have e : (h ∘ reduces_S5000x64_S5000.lift (ix1 p)) = fun k : Fin 64 => h (ix2 p k) :=
    funext fun k => congrArg h (funext fun a => Fin.ext (by
      match a with
      | ⟨0, _⟩ => rfl
      | ⟨1, _⟩ => rfl))
  exact congrArg (fun f : Fin 64 → EReal => (Finset.univ : Finset (Fin 64)).fold max ⊥ f) e

/-- A row's sum: the lane reduction by + from 0 at row p is the sum of the row's 64 entries. -/
private theorem rowsum_apply2 (g : FVec Ideal S5000x64 .f32) (p : Fin 5000) :
    multiReduction (F := Ideal) .add [1] S5000 g 0x00000000#32 reduces_S5000x64_S5000 (.inl rfl) rfl (ix1 p)
      = ∑ k : Fin 64, g (ix2 p k) := by
  refine (Ideal.multiReduction_add_single g _ reduces_S5000x64_S5000 (.inl rfl) rfl (ix1 p)).trans ?_
  show ∑ k : Fin 64, _ = _
  refine Finset.sum_congr rfl fun k _ => congrArg g (funext fun a => Fin.ext ?_)
  match a with
  | ⟨0, _⟩ => rfl
  | ⟨1, _⟩ => rfl

/-- The log-probabilities payload at an entry: the log-softmax of row p of the logits payload, the row's maximum carried as the fold. -/
private theorem logprob_pay_apply2 (x0 x1 : Vec Ideal S5000x128 .f32) (x2 x3 : Vec Ideal S128x64 .f32) (x4 : Vec Ideal S1x64 .f32)
    (p : Fin 5000) (q : Fin 64) :
    k2_pay2 (F := Ideal) x0 x1 x2 x3 x4 (ix2 p q)
      = (k2_pay1 (F := Ideal) x0 x1 x2 x3 x4 (ix2 p q)
            - (Finset.univ : Finset (Fin 64)).fold max ⊥ (fun k => k2_pay1 (F := Ideal) x0 x1 x2 x3 x4 (ix2 p k)))
          - Ideal.log (∑ k : Fin 64, Ideal.exp (k2_pay1 (F := Ideal) x0 x1 x2 x3 x4 (ix2 p k)
            - (Finset.univ : Finset (Fin 64)).fold max ⊥ (fun k => k2_pay1 (F := Ideal) x0 x1 x2 x3 x4 (ix2 p k)))) := by
  unfold k2_pay2
  generalize k2_pay1 (F := Ideal) x0 x1 x2 x3 x4 = h
  have hM : ∀ c : Fin 64, broadcastTo S5000x64 (shapeCast S5000x1 (multiReduction (F := Ideal) .maximumf [1] S5000 h 0xFF800000#32
        reduces_S5000x64_S5000 (.inl rfl) rfl) shapeCasts_S5000_S5000x1) broadcasts_S5000x1_S5000x64 (ix2 p c)
      = (Finset.univ : Finset (Fin 64)).fold max ⊥ (fun k => h (ix2 p k)) := fun c =>
    (col_bcast_apply2 _ _ p c).trans ((col_cast_apply2 _ _ p 0).trans (rowmax_apply2 h p))
  refine (subf_apply _ _ _).trans ?_
  refine congrArg₂ (· - ·) ?_ ?_
  · refine (subf_apply _ _ _).trans ?_
    exact congrArg (h (ix2 p q) - ·) (hM q)
  · refine (col_bcast_apply2 _ _ p q).trans ?_
    show Ideal.log (shapeCast S5000x1 _ shapeCasts_S5000_S5000x1 (ix2 p 0)) = _
    refine congrArg Ideal.log ?_
    refine (col_cast_apply2 _ _ p 0).trans ?_
    refine (rowsum_apply2 _ p).trans ?_
    refine Finset.sum_congr rfl fun k _ => ?_
    show Ideal.exp (h (ix2 p k) - _) = _
    exact congrArg (fun M => Ideal.exp (h (ix2 p k) - M)) (hM k)

/-- The zero offsets of a whole-block access, however spelt. -/
private theorem hz2 : (![0, 0] : Fin 2 → Nat) = fun _ => 0 := funext fun a => by fin_cases a <;> rfl

/-- The block indices of the seven windows at a grid point: the row-blocked windows (the two inputs of node rows and the
    two results) are at block (t, 0), the weights and the bias at block (0, 0). -/
private theorem blk_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The grid has ten points. -/
private theorem point_lt2 (t : Fin cfg2.N) : t.val < 10 := by
  have h := t.isLt
  have hN : cfg2.N = 10 := N_2
  omega

/-- Entry (p, k) of the neighbour-mean block at point t is entry (5000 t + p, k) of the array. -/
private theorem mean_blk_apply2 (c : Dev nD) (t : Fin cfg2.N) (p : Fin 5000) (k : Fin 128) (r : Fin 50000) (hr : r.val = t.val * 5000 + p.val) :
    (iblk2 V c 0 t : Vec Ideal S5000x128 .f32) (ix2 p k) = (V c main_v54 : S50000x128.Idx → EReal) (ix2 r k) := by
  obtain ⟨e0, e1, -⟩ := blk_index2 t
  unfold iblk2
  rw [View.read_apply]
  show V c main_v54 _ = V c main_v54 _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Entry (p, k) of the node-feature block at point t is entry (5000 t + p, k) of the array. -/
private theorem feat_blk_apply2 (c : Dev nD) (t : Fin cfg2.N) (p : Fin 5000) (k : Fin 128) (r : Fin 50000) (hr : r.val = t.val * 5000 + p.val) :
    (iblk2 V c 1 t : Vec Ideal S5000x128 .f32) (ix2 p k) = (V c main_v41 : S50000x128.Idx → EReal) (ix2 r k) := by
  obtain ⟨-, -, e0, e1, -⟩ := blk_index2 t
  unfold iblk2
  rw [View.read_apply]
  show V c main_v41 _ = V c main_v41 _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The first weight matrix's one block is the matrix. -/
private theorem wl_blk_apply2 (c : Dev nD) (t : Fin cfg2.N) (k : Fin 128) (q : Fin 64) :
    (iblk2 V c 2 t : Vec Ideal S128x64 .f32) (ix2 k q) = (V c main_arg8 : S128x64.Idx → EReal) (ix2 k q) := by
  obtain ⟨-, -, -, -, e0, e1, -⟩ := blk_index2 t
  unfold iblk2
  rw [View.read_apply]
  show V c main_arg8 _ = V c main_arg8 _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 64 + 1 * q.val = q.val; rw [e1]; omega

/-- The second weight matrix's one block is the matrix. -/
private theorem wr_blk_apply2 (c : Dev nD) (t : Fin cfg2.N) (k : Fin 128) (q : Fin 64) :
    (iblk2 V c 3 t : Vec Ideal S128x64 .f32) (ix2 k q) = (V c main_arg9 : S128x64.Idx → EReal) (ix2 k q) := by
  obtain ⟨-, -, -, -, -, -, e0, e1, -⟩ := blk_index2 t
  unfold iblk2
  rw [View.read_apply]
  show V c main_arg9 _ = V c main_arg9 _
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 64 + 1 * q.val = q.val; rw [e1]; omega

/-- The bias row's one block is the row. -/
private theorem bias_blk_apply2 (c : Dev nD) (t : Fin cfg2.N) (q : Fin 64) :
    (iblk2 V c 4 t : Vec Ideal S1x64 .f32) (ix2 (0 : Fin 1) q) = (V c main_v55 : S1x64.Idx → EReal) (ix2 (0 : Fin 1) q) := by
  obtain ⟨-, -, -, -, -, -, -, -, e0, e1, -⟩ := blk_index2 t
  unfold iblk2
  rw [View.read_apply]
  show V c main_v55 _ = V c main_v55 _
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- The logits as one function of the arrays the region finds. -/
private abbrev logitsOf2 (c : Dev nD) : S50000x64.Idx → EReal :=
  Cert.Sage.lin64 (V c main_v54) (V c main_v41) (V c main_arg8) (V c main_arg9) (fun j => V c main_v55 (ix2 (0 : Fin 1) j))

/-- Entry (p, q) of the logits payload of the blocks at point t is the logit of node 5000 t + p, feature q. -/
private theorem logits_pay_blocks2 (c : Dev nD) (t : Fin cfg2.N) (p : Fin 5000) (q : Fin 64) (r : Fin 50000) (hr : r.val = t.val * 5000 + p.val) :
    k2_pay1 (F := Ideal) (iblk2 V c 0 t) (iblk2 V c 1 t) (iblk2 V c 2 t) (iblk2 V c 3 t) (iblk2 V c 4 t) (ix2 p q)
      = logitsOf2 V c (ix2 r q) := by
  refine (logits_pay_apply2 (iblk2 V c 0 t) (iblk2 V c 1 t) (iblk2 V c 2 t) (iblk2 V c 3 t) (iblk2 V c 4 t) p q).trans ?_
  show _ = Cert.Sage.lin64 _ _ _ _ _ (ix2 r q)
  unfold Cert.Sage.lin64
  refine congrArg₂ (fun a b : EReal => a + b) (congrArg₂ (fun a b : EReal => a + b) ?_ ?_) (bias_blk_apply2 V c t q)
  · exact Finset.sum_congr rfl fun k _ => congrArg₂ (fun a b : EReal => a * b) (mean_blk_apply2 V c t p k r hr) (wl_blk_apply2 V c t k q)
  · exact Finset.sum_congr rfl fun k _ => congrArg₂ (fun a b : EReal => a * b) (feat_blk_apply2 V c t p k r hr) (wr_blk_apply2 V c t k q)

/-- Entry (p, q) of the logits' block at point t is entry (5000 t + p, q) of the array. -/
private theorem logits_emb2 (t : Fin cfg2.N) (p : Fin 5000) (q : Fin 64) (r : Fin 50000) (hr : r.val = t.val * 5000 + p.val) :
    ((cfg2.win 5).blk t).view.emb (ix2 p q) = (ix2 r q : S50000x64.Idx) := by
  obtain ⟨-, -, -, -, -, -, -, -, -, -, e0, e1, -⟩ := blk_index2 t
  refine funext fun a => Fin.ext ?_
  match a with
  | ⟨0, _⟩ => show win2_5.index t (0 : Fin 2) * 5000 + 1 * p.val = r.val; rw [e0, hr]; omega
  | ⟨1, _⟩ => show win2_5.index t (1 : Fin 2) * 64 + 1 * q.val = q.val; rw [e1]; omega

/-- What point t writes back to the logits array is block t of the logits. -/
private theorem logits_flushed2 (c : Dev nD) (t : Fin cfg2.N) :
    (dat2 (F := Ideal) V c).flushed 5 t = ((cfg2.win 5).blk t).view.read (Elt Ideal) (logitsOf2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x64) hz2, View.ld_unit_zero (S := S1x64) hz2]
  refine funext fun (j : S5000x64.Idx) => ?_
  obtain ⟨p, q, rfl⟩ : ∃ (p : Fin 5000) (q : Fin 64), j = ix2 p q := ⟨j 0, j 1, eq_ix2 j⟩
  have ht := point_lt2 t
  rw [View.read_apply, logits_emb2 t p q ⟨t.val * 5000 + p.val, by omega⟩ rfl]
  exact logits_pay_blocks2 V c t p q ⟨t.val * 5000 + p.val, by omega⟩ rfl

/-- An entry of the logits array lies in point t's block iff its row is one of rows 5000 t … 5000 t + 4999. -/
private theorem logits_mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56_0).slice (win2_5.rect t)).set ↔ _
  rw [View.set_slice_whole, Rect.mem_set_unit]
  exact Iff.rfl

/-- Every entry of the logits array is written back: row r by point r / 5000. -/
private theorem logits_cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  have hlt : (i 0).val / 5000 < cfg2.N := by rw [hN]; omega
  refine ⟨⟨(i 0).val / 5000, hlt⟩, flush2_5 _, ?_⟩
  rw [logits_mem_blk2]
  obtain ⟨-, -, -, -, -, -, -, -, -, -, e0, e1, -⟩ := blk_index2 ⟨(i 0).val / 5000, hlt⟩
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e1]
    omega

/-- Region 2's first result array after the region: the logits of the arrays the region finds. -/
theorem arr2_logits (c : Dev nD) :
    (dat2 (F := Ideal) V c).arrAt 5 cfg2.N
      = Cert.Sage.lin64 (V c main_v54) (V c main_v41) (V c main_arg8) (V c main_arg9) (fun j => V c main_v55 (ix2 (0 : Fin 1) j)) :=
  (dat2 (F := Ideal) V c).arrAt_eq_of_cover 5 (logitsOf2 V c) (fun t _ => logits_flushed2 V c t) (logits_cover2)

/-- Entry (p, q) of the log-probabilities payload of the blocks at point t is the log-probability of node 5000 t + p,
    feature q: the block's row p is the whole row of the node's logits, so its maximum and its sum are the node's. -/
private theorem logprob_pay_blocks2 (c : Dev nD) (t : Fin cfg2.N) (p : Fin 5000) (q : Fin 64) (r : Fin 50000) (hr : r.val = t.val * 5000 + p.val) :
    k2_pay2 (F := Ideal) (iblk2 V c 0 t) (iblk2 V c 1 t) (iblk2 V c 2 t) (iblk2 V c 3 t) (iblk2 V c 4 t) (ix2 p q)
      = Cert.Sage.logsm (logitsOf2 V c) (ix2 r q) := by
  refine (logprob_pay_apply2 (iblk2 V c 0 t) (iblk2 V c 1 t) (iblk2 V c 2 t) (iblk2 V c 3 t) (iblk2 V c 4 t) p q).trans ?_
  have hrow : ∀ k : Fin 64, k2_pay1 (F := Ideal) (iblk2 V c 0 t) (iblk2 V c 1 t) (iblk2 V c 2 t) (iblk2 V c 3 t) (iblk2 V c 4 t) (ix2 p k)
      = logitsOf2 V c (ix2 r k) := fun k => logits_pay_blocks2 V c t p k r hr
  have hM : (Finset.univ : Finset (Fin 64)).fold max ⊥
        (fun k => k2_pay1 (F := Ideal) (iblk2 V c 0 t) (iblk2 V c 1 t) (iblk2 V c 2 t) (iblk2 V c 3 t) (iblk2 V c 4 t) (ix2 p k))
      = (Finset.univ : Finset (Fin 64)).fold max ⊥ (fun k => logitsOf2 V c (ix2 r k)) :=
    congrArg (fun f : Fin 64 → EReal => (Finset.univ : Finset (Fin 64)).fold max ⊥ f) (funext hrow)
  show _ = Cert.Sage.logsm _ (ix2 r q)
  unfold Cert.Sage.logsm Cert.Sage.rowMax
  exact congrArg₂ (fun a b : EReal => a - b) (congrArg₂ (fun a b : EReal => a - b) (hrow q) hM)
    (congrArg Ideal.log (Finset.sum_congr rfl fun k _ => congrArg Ideal.exp (congrArg₂ (fun a b : EReal => a - b) (hrow k) hM)))

/-- Entry (p, q) of the log-probabilities' block at point t is entry (5000 t + p, q) of the array. -/
private theorem logprob_emb2 (t : Fin cfg2.N) (p : Fin 5000) (q : Fin 64) (r : Fin 50000) (hr : r.val = t.val * 5000 + p.val) :
    ((cfg2.win 6).blk t).view.emb (ix2 p q) = (ix2 r q : S50000x64.Idx) := by
  obtain ⟨-, -, -, -, -, -, -, -, -, -, -, -, e0, e1⟩ := blk_index2 t
  refine funext fun a => Fin.ext ?_
  match a with
  | ⟨0, _⟩ => show win2_6.index t (0 : Fin 2) * 5000 + 1 * p.val = r.val; rw [e0, hr]; omega
  | ⟨1, _⟩ => show win2_6.index t (1 : Fin 2) * 64 + 1 * q.val = q.val; rw [e1]; omega

/-- What point t writes back to the log-probabilities array is block t of the log-probabilities of the logits. -/
private theorem logprob_flushed2 (c : Dev nD) (t : Fin cfg2.N) :
    (dat2 (F := Ideal) V c).flushed 6 t = ((cfg2.win 6).blk t).view.read (Elt Ideal) (Cert.Sage.logsm (logitsOf2 V c)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x64) hz2, View.ld_unit_zero (S := S1x64) hz2]
  refine funext fun (j : S5000x64.Idx) => ?_
  obtain ⟨p, q, rfl⟩ : ∃ (p : Fin 5000) (q : Fin 64), j = ix2 p q := ⟨j 0, j 1, eq_ix2 j⟩
  have ht := point_lt2 t
  rw [View.read_apply, logprob_emb2 t p q ⟨t.val * 5000 + p.val, by omega⟩ rfl]
  exact logprob_pay_blocks2 V c t p q ⟨t.val * 5000 + p.val, by omega⟩ rfl

/-- An entry of the log-probabilities array lies in point t's block iff its row is one of rows 5000 t … 5000 t + 4999. -/
private theorem logprob_mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v56_1).slice (win2_6.rect t)).set ↔ _
  rw [View.set_slice_whole, Rect.mem_set_unit]
  exact Iff.rfl

/-- Every entry of the log-probabilities array is written back: row r by point r / 5000. -/
private theorem logprob_cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  have hlt : (i 0).val / 5000 < cfg2.N := by rw [hN]; omega
  refine ⟨⟨(i 0).val / 5000, hlt⟩, flush2_6 _, ?_⟩
  rw [logprob_mem_blk2]
  obtain ⟨-, -, -, -, -, -, -, -, -, -, -, -, e0, e1⟩ := blk_index2 ⟨(i 0).val / 5000, hlt⟩
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]
    omega

/-- Region 2's second result array after the region: the log-probabilities of those logits. -/
theorem arr2_logprob (c : Dev nD) :
    (dat2 (F := Ideal) V c).arrAt 6 cfg2.N
      = Cert.Sage.logsm (Cert.Sage.lin64 (V c main_v54) (V c main_v41) (V c main_arg8) (V c main_arg9) (fun j => V c main_v55 (ix2 (0 : Fin 1) j))) :=
  (dat2 (F := Ideal) V c).arrAt_eq_of_cover 6 (Cert.Sage.logsm (logitsOf2 V c)) (fun t _ => logprob_flushed2 V c t) (logprob_cover2)

end Cert.KernelIdeal.Hand

end
-- ==== Proof.MeanLaw.lean ====
/-
  The two spellings of the neighbour mean are one array over the extended reals.
-/
import proofs.«179301_j15247133901327_1_alg».proof.Proof.HostChain

noncomputable section

namespace Cert.KernelIdeal.Hand

open Cert.KernelIdeal Cert.KernelIdeal.Gen Idealize.ShloMosaic Idealize.ShloMosaic.ValueIdx

/-- The all-ones vector holds the real one at every node. -/
theorem ones_apply (j : S50000.Idx) : ones (F := Ideal) j = 1 := by
  unfold ones
  rw [broadcastInDim_apply ![] bcast_S_S50000 (constant (F := Ideal) S_ .f32 0x3F800000#32) j ix0 (fun a => a.elim0), constant_apply, Cert.Sage.ofBits_one]

/-- The clamped count at a node. -/
theorem cmax_apply (e : (⟨S2x800000, .i32⟩ : BufTy).Contents (Elt Ideal)) (j : S50000.Idx) :
    cmax (F := Ideal) e j = max (cnt (F := Ideal) e j) 1 := by
  unfold cmax
  rw [maximumf_apply, ones_apply]

/-- The host's quotient of two arrays at an entry is the quotient of the entries. -/
theorem hostDivf_at {s : Shape} {φ : FTy} (a b : FVec Ideal s φ) (j : s.Idx) : Host.divf a b j = Ideal.div (a j) (b j) := rfl

/-- The reciprocal count at a node. -/
theorem invc_apply (e : (⟨S2x800000, .i32⟩ : BufTy).Contents (Elt Ideal)) (j : S50000.Idx) :
    invc (F := Ideal) e j = Ideal.div 1 (max (cnt (F := Ideal) e j) 1) := by
  unfold invc
  rw [hostDivf_at, ones_apply, cmax_apply]

/-- Over the extended reals the two means are one array: entry by entry, the product with 1 / max(count, 1) is the
    quotient by max(count, 1). -/
theorem mean_eq (h : (⟨S50000x128, .f32⟩ : BufTy).Contents (Elt Ideal)) (e : (⟨S2x800000, .i32⟩ : BufTy).Contents (Elt Ideal)) :
    meanMul (F := Ideal) h e = meanDiv (F := Ideal) h e := by
  funext i
  unfold meanMul meanDiv
  rw [mulf_apply, hostDivf_at, col_apply, col_apply, invc_apply, cmax_apply]
  exact Cert.Sage.mul_recip _ _

end Cert.KernelIdeal.Hand

end
-- ==== Proof.RefOps.lean ====
/-
  The reference's dense layers as functions of a neighbour mean and the node features.

  A hidden layer is (mean·Wl + bias) + x·Wr clamped below at zero; the last layer has no clamp and 64 output features, and
  its logits are turned into log-probabilities row by row: the row's largest logit is subtracted, the exponentials are
  summed along the row, and the logarithm of that sum is subtracted.
-/
import proofs.«179301_j15247133901327_1_alg».proof.ReferenceIdeal
import proofs.«179301_j15247133901327_1_alg».proof.Proof.Gen.ReferenceIdeal

noncomputable section

namespace Cert.ReferenceIdeal.Hand

open Cert.ReferenceIdeal Cert.ReferenceIdeal.Gen Idealize.ShloMosaic

variable {F : FTy → Type} [FloatOps F]

/-- (mean·Wl + bias) + x·Wr, 128 output features. -/
def pre128 (mean x : (⟨S50000x128, .f32⟩ : BufTy).Contents (Elt F)) (Wl Wr : (⟨S128x128, .f32⟩ : BufTy).Contents (Elt F))
    (b : (⟨S128, .f32⟩ : BufTy).Contents (Elt F)) : (⟨S50000x128, .f32⟩ : BufTy).Contents (Elt F) :=
  addf (addf (Host.dotGeneral dot_S50000x128_S128x128_S50000x128_1_0_0_1_n_n none mean Wl)
      (broadcastInDim S50000x128 ![0, 1] bcast_S1x128_S50000x128_0_1 (broadcastInDim S1x128 ![1] bcast_S128_S1x128_1 b)))
    (Host.dotGeneral dot_S50000x128_S128x128_S50000x128_1_0_0_1_n_n none x Wr)

/-- A hidden layer: the linear part clamped below at zero. -/
def hidden (mean x : (⟨S50000x128, .f32⟩ : BufTy).Contents (Elt F)) (Wl Wr : (⟨S128x128, .f32⟩ : BufTy).Contents (Elt F))
    (b : (⟨S128, .f32⟩ : BufTy).Contents (Elt F)) : (⟨S50000x128, .f32⟩ : BufTy).Contents (Elt F) :=
  maximumf (pre128 mean x Wl Wr b) (broadcastInDim S50000x128 ![] bcast_S_S50000x128 (constant S_ .f32 0x00000000#32))

/-- The last layer's logits: (mean·Wl + bias) + x·Wr, 64 output features. -/
def logits (mean x : (⟨S50000x128, .f32⟩ : BufTy).Contents (Elt F)) (Wl Wr : (⟨S128x64, .f32⟩ : BufTy).Contents (Elt F))
    (b : (⟨S64, .f32⟩ : BufTy).Contents (Elt F)) : (⟨S50000x64, .f32⟩ : BufTy).Contents (Elt F) :=
  addf (addf (Host.dotGeneral dot_S50000x128_S128x64_S50000x64_1_0_0_1_n_n none mean Wl)
      (broadcastInDim S50000x64 ![0, 1] bcast_S1x64_S50000x64_0_1 (broadcastInDim S1x64 ![1] bcast_S64_S1x64_1 b)))
    (Host.dotGeneral dot_S50000x128_S128x64_S50000x64_1_0_0_1_n_n none x Wr)

/-- A per-node value spread along the 64 logits of its row. -/
def col64 (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- The logits with each row's largest logit subtracted. -/
def shifted (h : (⟨S50000x64, .f32⟩ : BufTy).Contents (Elt F)) : (⟨S50000x64, .f32⟩ : BufTy).Contents (Elt F) :=
  subf h (col64 (maximumf (broadcastInDim S50000 ![] bcast_S_S50000 (constant S_ .f32 0xFF800000#32))
    (Host.reduce FloatOps.maximumf h (constant S_ .f32 0xFF800000#32) reducesTo_S50000x64_S50000_d1 h_S_)))

/-- Log-probabilities: the shifted logits minus the logarithm of the row's sum of their exponentials. -/
def logprob (h : (⟨S50000x64, .f32⟩ : BufTy).Contents (Elt F)) : (⟨S50000x64, .f32⟩ : BufTy).Contents (Elt F) :=
  subf (shifted h)
    (broadcastInDim S50000x64 ![0, 1] bcast_S50000x1_S50000x64_0_1
      (Host.log (broadcastInDim S50000x1 ![0] bcast_S50000_S50000x1_0
        (Host.reduceAdd (Host.exp (shifted h)) (constant S_ .f32 0x00000000#32) reducesTo_S50000x64_S50000_d1 h_S_))))

end Cert.ReferenceIdeal.Hand

end
-- ==== Proof.RefValue.lean ====
/-
  The reference's run, read layer by layer: its two results as the dense layers of the neighbour means, each layer a
  function of the one before.
-/
import proofs.«179301_j15247133901327_1_alg».proof.Proof.RefRun
import proofs.«179301_j15247133901327_1_alg».proof.Proof.RefOps
import proofs.«179301_j15247133901327_1_alg».proof.Proof.HostChain
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

namespace RunLayers

/-! ## The neighbour mean over given source and destination vectors

The same aggregation as the shared neighbour mean, with the edges' source and destination vectors as arguments of their
own: the later layers read them from the buffers the first layer left. -/

/-- The gather's index column over a source vector: a negative index is wrapped by the number of nodes. -/
def gixOf (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's index column over a destination vector. -/
def sixOf (d : (⟨S800000, .i32⟩ : BufTy).Contents (Elt F)) : (⟨S800000x1, .i32⟩ : BufTy).Contents (Elt F) :=
  broadcastInDim S800000x1 ![0] bcast_S800000_S800000x1_0 d

/-- The summed messages: every edge's source row added into its destination's row, from zero. -/
def aggOf (h : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (sixOf d)
    (Host.gather gather_S50000x128_S800000x1_S800000x128_1_0_n_n_0_1_1128 h (gixOf s))

/-- The number of edges arriving at each node, clamped below at one. -/
def cmaxOf (d : (⟨S800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (sixOf d) (broadcastInDim S800000 ![] bcast_S_S800000 (constant S_ .f32 0x3F800000#32)))
    (broadcastInDim S50000 ![] bcast_S_S50000 (constant S_ .f32 0x3F800000#32))

/-- The neighbour mean as a quotient by the clamped count, row by row. -/
def meanOf (h : (⟨S50000x128, .f32⟩ : BufTy).Contents (Elt F)) (s d : (⟨S800000, .i32⟩ : BufTy).Contents (Elt F)) :
    (⟨S50000x128, .f32⟩ : BufTy).Contents (Elt F) :=
  Host.divf (aggOf h s d)
    (broadcastInDim S50000x128 ![0, 1] bcast_S50000x1_S50000x128_0_1 (broadcastInDim S50000x1 ![0] bcast_S50000_S50000x1_0 (cmaxOf d)))

/-- The shared neighbour mean is this one at the edge list's two rows. -/
theorem meanDiv_eq_meanOf (h : (⟨S50000x128, .f32⟩ : BufTy).Contents (Elt F)) (e : (⟨S2x800000, .i32⟩ : BufTy).Contents (Elt F)) :
    Cert.KernelIdeal.Hand.meanDiv (F := F) h e = meanOf h (Cert.KernelIdeal.Hand.srcv e) (Cert.KernelIdeal.Hand.dstv e) := rfl

/-- Contents moved to a typed reference's buffer and back are the contents. -/
theorem ofBuf_toBuf {T : BufTy} (x : TRef sig T) (v : T.Contents (Elt F)) : x.ofBuf (x.toBuf v) = v := by
  obtain ⟨r, rfl, _, _⟩ := x
  rfl

/-! ## The first layer's stretch of the program -/

/-- The first 38 operations: the edge list's two rows, the first neighbour mean, the first hidden layer. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    binary main_arg0 main_arg3 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf ]

set_option maxHeartbeats 400000 in
/-- After the first stretch the first layer's buffer holds the hidden layer of the arguments. -/
theorem opsA_v29 (W : Valuation τ sig (Elt F)) : after (opsA (F := F)) W (Proc.devRef .tc main_v29) =
    hidden (meanOf (W (Proc.devRef .tc main_arg0)) (Cert.KernelIdeal.Hand.srcv (W (Proc.devRef .tc main_arg1))) (Cert.KernelIdeal.Hand.dstv (W (Proc.devRef .tc main_arg1))))
      (W (Proc.devRef .tc main_arg0)) (W (Proc.devRef .tc main_arg2)) (W (Proc.devRef .tc main_arg3)) (W (Proc.devRef .tc main_arg4)) := by
  after_results_simp
  simp only [ofBuf_toBuf]
  rfl

set_option maxHeartbeats 400000 in
/-- After the first stretch the source vector's buffer holds row 0 of the edge list. -/
theorem opsA_v1 (W : Valuation τ sig (Elt F)) : after (opsA (F := F)) W (Proc.devRef .tc main_v1) =
    Cert.KernelIdeal.Hand.srcv (W (Proc.devRef .tc main_arg1)) := by
  after_results_simp <;> rfl

set_option maxHeartbeats 400000 in
/-- After the first stretch the destination vector's buffer holds row 1 of the edge list. -/
theorem opsA_v3 (W : Valuation τ sig (Elt F)) : after (opsA (F := F)) W (Proc.devRef .tc main_v3) =
    Cert.KernelIdeal.Hand.dstv (W (Proc.devRef .tc main_arg1)) := by
  after_results_simp <;> rfl

/-- The buffers this stretch writes. -/
abbrev opsA_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_call0_cst, main_call0_v0, main_v29]

set_option maxHeartbeats 1000000 in
/-- Every operation of this stretch writes one of those buffers. -/
theorem opsA_writes : (opsA : List (HloOp τ sig (Elt F))).Forall fun op =>
    op.writes ⊆ (opsA_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer this stretch does not write keeps its contents through it. -/
theorem opsA_keep (W : Valuation τ sig (Elt F)) (r : Ref sig .tc) (h : r ∉ opsA_W) :
    after (opsA (F := F)) W (Proc.devRef .tc r) = W (Proc.devRef .tc r) :=
  after_of_writes_sub opsA _ opsA_writes h

/-! ## The second layer's stretch -/

/-- The next 34 operations: the second neighbour mean, over the first layer's features, and the second hidden layer. -/
abbrev opsB : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v40 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    binary main_v29 main_arg6 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v52 main_v53 main_v54 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v54) (TRef.of (T := ⟨S50000x128, .f32⟩) main_call1_v0) (TRef.of (T := ⟨S50000x128, .f32⟩) main_v55) maximumf ]

set_option maxHeartbeats 400000 in
/-- After the second stretch the second layer's buffer holds the hidden layer of the first layer's buffer. -/
theorem opsB_v55 (W : Valuation τ sig (Elt F)) : after (opsB (F := F)) W (Proc.devRef .tc main_v55) =
    hidden (meanOf (W (Proc.devRef .tc main_v29)) (W (Proc.devRef .tc main_v1)) (W (Proc.devRef .tc main_v3)))
      (W (Proc.devRef .tc main_v29)) (W (Proc.devRef .tc main_arg5)) (W (Proc.devRef .tc main_arg6)) (W (Proc.devRef .tc main_arg7)) := by
  after_results_simp
  simp only [ofBuf_toBuf]
  rfl

/-- The buffers this stretch writes. -/
abbrev opsB_W : List (Ref sig .tc) := [main_c_4, main_v30, main_v31, main_c_5, main_v32, main_v33, main_v34, main_v35, main_v36, main_cst_6, main_v37, main_v38, main_v39, main_cst_7, main_v40, main_cst_8, main_v41, main_v42, main_v43, main_cst_9, main_v44, main_v45, main_v46, main_v47, main_v48, main_v49, main_v50, main_v51, main_v52, main_v53, main_v54, main_call1_cst, main_call1_v0, main_v55]

set_option maxHeartbeats 1000000 in
/-- Every operation of this stretch writes one of those buffers. -/
theorem opsB_writes : (opsB : List (HloOp τ sig (Elt F))).Forall fun op =>
    op.writes ⊆ (opsB_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer this stretch does not write keeps its contents through it. -/
theorem opsB_keep (W : Valuation τ sig (Elt F)) (r : Ref sig .tc) (h : r ∉ opsB_W) :
    after (opsB (F := F)) W (Proc.devRef .tc r) = W (Proc.devRef .tc r) :=
  after_of_writes_sub opsB _ opsB_writes h

/-! ## The last layer's stretch -/

/-- The next 31 operations: the third neighbour mean, over the second layer's features, and the logits. -/
abbrev opsC : List (HloOp τ sig (Elt F)) :=
  [ nullary main_c_10 (constantI S_ 32 0#32),
    unary main_c_10 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v63 (broadcastInDim S50000x128 ![] bcast_S_S50000x128 : (⟨S_, .f32⟩ : BufTy).Contents (Elt F) → (⟨S50000x128, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v66 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v67 (broadcastInDim S50000 ![] bcast_S_S50000 : (⟨S_, .f32⟩ : BufTy).Contents (Elt F) → (⟨S50000, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v70 (broadcastInDim S50000 ![] bcast_S_S50000 : (⟨S_, .f32⟩ : BufTy).Contents (Elt F) → (⟨S50000, .f32⟩ : BufTy).Contents (Elt F)),
    binary main_v69 main_v70 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v65 main_v73 main_v74 (Host.divf : (⟨S50000x128, .f32⟩ : BufTy).Contents (Elt F) → (⟨S50000x128, .f32⟩ : BufTy).Contents (Elt F) → (⟨S50000x128, .f32⟩ : BufTy).Contents (Elt F)),
    binary main_v74 main_arg8 main_v75 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v75 main_v77 main_v78 (addf : (⟨S50000x64, .f32⟩ : BufTy).Contents (Elt F) → (⟨S50000x64, .f32⟩ : BufTy).Contents (Elt F) → (⟨S50000x64, .f32⟩ : BufTy).Contents (Elt F)),
    binary main_v55 main_arg9 main_v79 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v78 main_v79 main_v80 (addf : (⟨S50000x64, .f32⟩ : BufTy).Contents (Elt F) → (⟨S50000x64, .f32⟩ : BufTy).Contents (Elt F) → (⟨S50000x64, .f32⟩ : BufTy).Contents (Elt F)) ]

set_option maxHeartbeats 400000 in
/-- After the third stretch the logits' buffer holds the last layer of the second layer's buffer. -/
theorem opsC_v80 (W : Valuation τ sig (Elt F)) : after (opsC (F := F)) W (Proc.devRef .tc main_v80) =
    logits (meanOf (W (Proc.devRef .tc main_v55)) (W (Proc.devRef .tc main_v1)) (W (Proc.devRef .tc main_v3)))
      (W (Proc.devRef .tc main_v55)) (W (Proc.devRef .tc main_arg8)) (W (Proc.devRef .tc main_arg9)) (W (Proc.devRef .tc main_arg10)) := by
  after_results_simp <;> rfl

/-- The buffers this stretch writes. -/
abbrev opsC_W : List (Ref sig .tc) := [main_c_10, main_v56, main_v57, main_c_11, main_v58, main_v59, main_v60, main_v61, main_v62, main_cst_12, main_v63, main_v64, main_v65, main_cst_13, main_v66, main_cst_14, main_v67, main_v68, main_v69, main_cst_15, main_v70, main_v71, main_v72, main_v73, main_v74, main_v75, main_v76, main_v77, main_v78, main_v79, main_v80]

set_option maxHeartbeats 1000000 in
/-- Every operation of this stretch writes one of those buffers. -/
theorem opsC_writes : (opsC : List (HloOp τ sig (Elt F))).Forall fun op =>
    op.writes ⊆ (opsC_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer this stretch does not write keeps its contents through it. -/
theorem opsC_keep (W : Valuation τ sig (Elt F)) (r : Ref sig .tc) (h : r ∉ opsC_W) :
    after (opsC (F := F)) W (Proc.devRef .tc r) = W (Proc.devRef .tc r) :=
  after_of_writes_sub opsC _ opsC_writes h

/-! ## The log-probabilities' stretch -/

/-- The last 15 operations: the logits turned into log-probabilities row by row. -/
abbrev opsD : List (HloOp τ sig (Elt F)) :=
  [ TRef.nullary (TRef.of (T := ⟨S_, .f32⟩) main_call2_cst) (constant S_ .f32 0xFF800000#32),
    TRef.binary (TRef.of (T := ⟨S50000x64, .f32⟩) main_v80) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v80) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v81) subf ]

set_option maxHeartbeats 400000 in
/-- After the last stretch the result buffer holds the log-probabilities of the logits' buffer. -/
theorem opsD_v81 (W : Valuation τ sig (Elt F)) : after (opsD (F := F)) W (Proc.devRef .tc main_v81) =
    logprob (W (Proc.devRef .tc main_v80)) := by
  after_results_simp
  simp only [ofBuf_toBuf]
  rfl

/-- The buffers this stretch writes. -/
abbrev opsD_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v81]

set_option maxHeartbeats 1000000 in
/-- Every operation of this stretch writes one of those buffers. -/
theorem opsD_writes : (opsD : List (HloOp τ sig (Elt F))).Forall fun op =>
    op.writes ⊆ (opsD_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer this stretch does not write keeps its contents through it. -/
theorem opsD_keep (W : Valuation τ sig (Elt F)) (r : Ref sig .tc) (h : r ∉ opsD_W) :
    after (opsD (F := F)) W (Proc.devRef .tc r) = W (Proc.devRef .tc r) :=
  after_of_writes_sub opsD _ opsD_writes h

/-! ## The four stretches in a row -/

set_option maxHeartbeats 1000000 in
/-- The program's operations are the four stretches in order. -/
theorem ops_split : (RunP.ops : List (HloOp τ sig (Elt F))) = opsA ++ (opsB ++ (opsC ++ opsD)) := rfl

/-- The fold over the whole program is the folds over the stretches, one after the other. -/
theorem after_ops (W : Valuation τ sig (Elt F)) :
    after (RunP.ops (F := F)) W = after opsD (after opsC (after opsB (after opsA W))) := by
  rw [ops_split, StableHlo.after_append, StableHlo.after_append, StableHlo.after_append]

end RunLayers

variable (m : (ℓ : Loc nD τ sig) → Buf (Elt F) ℓ) (ρ : Dev nD → PrngReg)

/-- The neighbour mean of node features `h` along the launch memory's edge list (the quotient spelling). -/
abbrev nmean (c : Dev nD) (h : (⟨S50000x128, .f32⟩ : BufTy).Contents (Elt F)) : (⟨S50000x128, .f32⟩ : BufTy).Contents (Elt F) :=
  Cert.KernelIdeal.Hand.meanDiv (F := F) h (m ((c.tc : Thread nD τ).loc main_arg1))

/-- The first hidden layer's features. -/
def H1 (c : Dev nD) : (⟨S50000x128, .f32⟩ : BufTy).Contents (Elt F) :=
  hidden (nmean m c (m ((c.tc : Thread nD τ).loc main_arg0))) (m ((c.tc : Thread nD τ).loc main_arg0))
    (m ((c.tc : Thread nD τ).loc main_arg2)) (m ((c.tc : Thread nD τ).loc main_arg3)) (m ((c.tc : Thread nD τ).loc main_arg4))

/-- The second hidden layer's features. -/
def H2 (c : Dev nD) : (⟨S50000x128, .f32⟩ : BufTy).Contents (Elt F) :=
  hidden (nmean m c (H1 m c)) (H1 m c)
    (m ((c.tc : Thread nD τ).loc main_arg5)) (m ((c.tc : Thread nD τ).loc main_arg6)) (m ((c.tc : Thread nD τ).loc main_arg7))

/-- The last layer's logits. -/
def H3 (c : Dev nD) : (⟨S50000x64, .f32⟩ : BufTy).Contents (Elt F) :=
  logits (nmean m c (H2 m c)) (H2 m c)
    (m ((c.tc : Thread nD τ).loc main_arg8)) (m ((c.tc : Thread nD τ).loc main_arg9)) (m ((c.tc : Thread nD τ).loc main_arg10))

namespace RunLayers

variable (c : Dev nD)

/-! ## The device's buffers after each stretch, from the launch memory

Each level is the next stretch's fold over the level before it. -/

/-- The buffers after the first stretch. -/
def WA : Valuation τ sig (Elt F) := after opsA (launchContents m c)
/-- The buffers after the second stretch. -/
def WB : Valuation τ sig (Elt F) := after opsB (WA m c)
/-- The buffers after the third stretch. -/
def WC : Valuation τ sig (Elt F) := after opsC (WB m c)

/-- The whole program's fold from the launch memory is the last stretch's fold over the third level. -/
theorem after_ops_launch : after (RunP.ops (F := F)) (launchContents m c) = after opsD (WC m c) := by
  rw [after_ops]
  unfold WC WB WA
  rfl

/-- The first stretch writes no buffer outside its own: such a buffer is as launched. -/
theorem WA_keep (r : Ref sig .tc) (h : r ∉ opsA_W) : WA m c (Proc.devRef .tc r) = m ((c.tc : Thread nD τ).loc r) :=
  opsA_keep (launchContents m c) r h

/-- The edges' source nodes, read off the launch memory's edge list. -/
theorem WA_v1 : WA m c (Proc.devRef .tc main_v1) = Cert.KernelIdeal.Hand.srcv (m ((c.tc : Thread nD τ).loc main_arg1)) :=
  opsA_v1 (launchContents m c)

/-- The edges' destination nodes. -/
theorem WA_v3 : WA m c (Proc.devRef .tc main_v3) = Cert.KernelIdeal.Hand.dstv (m ((c.tc : Thread nD τ).loc main_arg1)) :=
  opsA_v3 (launchContents m c)

/-- The first layer's buffer holds the first hidden layer's features. -/
theorem WA_v29 : WA m c (Proc.devRef .tc main_v29) = H1 m c :=
  (opsA_v29 (launchContents m c)).trans (by unfold H1 nmean; rw [meanDiv_eq_meanOf])

/-- The second stretch writes no buffer outside its own. -/
theorem WB_keep (r : Ref sig .tc) (h : r ∉ opsB_W) : WB m c (Proc.devRef .tc r) = WA m c (Proc.devRef .tc r) :=
  opsB_keep (WA m c) r h

/-- The second layer's buffer holds the second hidden layer's features. -/
theorem WB_v55 : WB m c (Proc.devRef .tc main_v55) = H2 m c := by
  unfold WB
  rw [opsB_v55, WA_v29, WA_v1, WA_v3, WA_keep m c main_arg5 (by decide), WA_keep m c main_arg6 (by decide),
    WA_keep m c main_arg7 (by decide)]
  unfold H2 nmean
  rw [meanDiv_eq_meanOf]

/-- The third stretch writes no buffer outside its own. -/
theorem WC_keep (r : Ref sig .tc) (h : r ∉ opsC_W) : WC m c (Proc.devRef .tc r) = WB m c (Proc.devRef .tc r) :=
  opsC_keep (WB m c) r h

/-- The logits' buffer holds the last layer's logits. -/
theorem WC_v80 : WC m c (Proc.devRef .tc main_v80) = H3 m c := by
  unfold WC
  rw [opsC_v80, WB_v55, WB_keep m c main_v1 (by decide), WB_keep m c main_v3 (by decide), WA_v1, WA_v3,
    WB_keep m c main_arg8 (by decide), WB_keep m c main_arg9 (by decide), WB_keep m c main_arg10 (by decide),
    WA_keep m c main_arg8 (by decide), WA_keep m c main_arg9 (by decide), WA_keep m c main_arg10 (by decide)]
  unfold H3 nmean
  rw [meanDiv_eq_meanOf]

/-- The first result: the log-probabilities of the last layer's logits. -/
theorem out_v81 : after (RunP.ops (F := F)) (launchContents m c) (Proc.devRef .tc main_v81) = logprob (H3 m c) := by
  rw [after_ops_launch, opsD_v81, WC_v80]

/-- The second result: the logits, which the last stretch leaves. -/
theorem out_v80 : after (RunP.ops (F := F)) (launchContents m c) (Proc.devRef .tc main_v80) = H3 m c := by
  rw [after_ops_launch, opsD_keep _ main_v80 (by decide), WC_v80]

/-- A buffer no stretch writes ends as launched. -/
theorem out_keep (r : Ref sig .tc) (h : r ∉ opsA_W ∧ r ∉ opsB_W ∧ r ∉ opsC_W ∧ r ∉ opsD_W) :
    after (RunP.ops (F := F)) (launchContents m c) (Proc.devRef .tc r) = m ((c.tc : Thread nD τ).loc r) := by
  rw [after_ops_launch, opsD_keep _ r h.2.2.2, WC_keep m c r h.2.2.1, WB_keep m c r h.2.1, WA_keep m c r h.1]

end RunLayers

/-- The reference's run: every weakly fair execution terminates with the log-probabilities and the logits in its two
    result arrays, the arguments unchanged. -/
theorem run_value : θ_run defs (onTc (τ := τ) (main (F := F))) ⟨m, fun _ => 0, ρ⟩ fun r => ∀ c : Dev nD,
      r.2.mem ((c.tc : Thread nD τ).loc main_v81) = logprob (H3 m c)
      ∧ r.2.mem ((c.tc : Thread nD τ).loc main_v80) = H3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c main_v81).trans (RunLayers.out_v81 m c), (h c main_v80).trans (RunLayers.out_v80 m c),
      (h c main_arg0).trans (RunLayers.out_keep m c main_arg0 (by decide)),
      (h c main_arg1).trans (RunLayers.out_keep m c main_arg1 (by decide)),
      (h c main_arg2).trans (RunLayers.out_keep m c main_arg2 (by decide)),
      (h c main_arg3).trans (RunLayers.out_keep m c main_arg3 (by decide)),
      (h c main_arg4).trans (RunLayers.out_keep m c main_arg4 (by decide)),
      (h c main_arg5).trans (RunLayers.out_keep m c main_arg5 (by decide)),
      (h c main_arg6).trans (RunLayers.out_keep m c main_arg6 (by decide)),
      (h c main_arg7).trans (RunLayers.out_keep m c main_arg7 (by decide)),
      (h c main_arg8).trans (RunLayers.out_keep m c main_arg8 (by decide)),
      (h c main_arg9).trans (RunLayers.out_keep m c main_arg9 (by decide)),
      (h c main_arg10).trans (RunLayers.out_keep m c main_arg10 (by decide))⟩)
    (RunP.run_after m ρ)

end Cert.ReferenceIdeal.Hand

end
-- ==== Proof.RefPoint.lean ====
/-
  The reference's dense layers read entry by entry over the extended reals.
-/
import proofs.«179301_j15247133901327_1_alg».proof.Proof.RefOps
import proofs.«179301_j15247133901327_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.ReferenceIdeal.Hand

open Cert.ReferenceIdeal Cert.ReferenceIdeal.Gen

/-! ## The plain product of an [M, K] array by a [K, N] array at an entry -/

section Plain
variable {M K N : ℕ}

/-- The left operand's row coordinate is the result's row coordinate. -/
private theorem lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
private theorem lhs_col (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction coordinate. -/
private theorem rhs_row (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate is the result's column coordinate. -/
private theorem rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the host's plain product is ∑ k, left (p, k) · right (k, q). -/
private theorem dot_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Plain

/-! ## Broadcasts at an entry -/

section Spread
variable {α : Type} {M n : ℕ}

/-- A vector of n entries made a one-row matrix and copied down M rows reads, at (p, q), the vector's entry q. -/
private theorem rowSpread_apply (h1 : (⟨2, ![1, n]⟩ : Shape).BroadcastsInDim (⟨2, ![M, n]⟩ : Shape) (![0, 1] : Fin 2 → Fin (⟨2, ![M, n]⟩ : Shape).rank))
    (h2 : (⟨1, ![n]⟩ : Shape).BroadcastsInDim (⟨2, ![1, n]⟩ : Shape) (![1] : Fin 1 → Fin (⟨2, ![1, n]⟩ : Shape).rank))
    (b : (⟨1, ![n]⟩ : Shape).Idx → α) (p : Fin M) (q : Fin n) :
    broadcastInDim (⟨2, ![M, n]⟩ : Shape) ![0, 1] h1 (broadcastInDim (⟨2, ![1, n]⟩ : Shape) ![1] h2 b) (ix2 p q) = b (ix1 q) := by
  have hq := q.isLt
  refine (broadcastInDim_apply _ h1 _ (ix2 p q) (ix2 (0 : Fin 1) q) ?_).trans
    (broadcastInDim_apply _ h2 b (ix2 (0 : Fin 1) q) (ix1 q) ?_)
  · intro a
    match a with
    | ⟨0, _⟩ => rfl
    | ⟨1, _⟩ =>
      show q.val = if n = 1 then 0 else q.val
      split <;> omega
  · intro a
    match a with
    | ⟨0, _⟩ =>
      show q.val = if n = 1 then 0 else q.val
      split <;> omega

/-- A one-column matrix copied along n columns reads, at (p, q), its entry (p, 0). -/
private theorem colSpread_apply (h1 : (⟨2, ![M, 1]⟩ : Shape).BroadcastsInDim (⟨2, ![M, n]⟩ : Shape) (![0, 1] : Fin 2 → Fin (⟨2, ![M, n]⟩ : Shape).rank))
    (w : (⟨2, ![M, 1]⟩ : Shape).Idx → α) (p : Fin M) (q : Fin n) :
    broadcastInDim (⟨2, ![M, n]⟩ : Shape) ![0, 1] h1 w (ix2 p q) = w (ix2 p (0 : Fin 1)) := by
  have hp := p.isLt
  refine broadcastInDim_apply _ h1 w (ix2 p q) (ix2 p (0 : Fin 1)) ?_
  intro a
  match a with
  | ⟨0, _⟩ =>
    show p.val = if M = 1 then 0 else p.val
    split <;> omega
  | ⟨1, _⟩ => rfl

/-- A vector of M entries made a one-column matrix reads, at (p, 0), the vector's entry p. -/
private theorem colOf_apply (h2 : (⟨1, ![M]⟩ : Shape).BroadcastsInDim (⟨2, ![M, 1]⟩ : Shape) (![0] : Fin 1 → Fin (⟨2, ![M, 1]⟩ : Shape).rank))
    (v : (⟨1, ![M]⟩ : Shape).Idx → α) (p : Fin M) :
    broadcastInDim (⟨2, ![M, 1]⟩ : Shape) ![0] h2 v (ix2 p (0 : Fin 1)) = v (ix1 p) := by
  have hp := p.isLt
  refine broadcastInDim_apply _ h2 v (ix2 p (0 : Fin 1)) (ix1 p) ?_
  intro a
  match a with
  | ⟨0, _⟩ =>
    show p.val = if M = 1 then 0 else p.val
    split <;> omega

/-- A scalar copied to every entry of an array reads the scalar everywhere. -/
private theorem splat_apply {s : Shape} (dims : Fin 0 → Fin s.rank) (h : (⟨0, ![]⟩ : Shape).BroadcastsInDim s dims)
    (c : (⟨0, ![]⟩ : Shape).Idx → α) (j : s.Idx) : broadcastInDim s dims h c j = c ix0 :=
  broadcastInDim_apply dims h c j ix0 (fun a => a.elim0)

end Spread

/-! ## Reductions along a row -/

section Rows
variable {M n : ℕ}

/-- A reduced index p with the column k put back is (p, k). -/
private theorem lift_row (h : (⟨2, ![M, n]⟩ : Shape).Reduces [1] (⟨1, ![M]⟩ : Shape)) (p : Fin M)
    (k : Fin ((⟨2, ![M, n]⟩ : Shape).size 1)) : h.lift (ix1 p) k = ix2 p (⟨k.val, k.isLt⟩ : Fin n) := by
  funext c; apply Fin.ext
  fin_cases c <;> rfl

/-- From −∞ the host's reduce with a maximum body along the rows is, at row p, the maximum of the row. -/
private theorem hostMax_apply (x : FVec Ideal ⟨2, ![M, n]⟩ .f32) (h' : (⟨2, ![M, n]⟩ : Shape).ReducesTo [1] (⟨1, ![M]⟩ : Shape))
    (hu : 0 < (⟨0, ![]⟩ : Shape).numel) (p : Fin M) :
    Host.reduce FloatOps.maximumf x (constant (F := Ideal) (⟨0, ![]⟩ : Shape) .f32 0xFF800000#32) h' hu (ix1 p)
      = (Finset.univ : Finset (Fin n)).fold max ⊥ (fun k => x (ix2 p k)) := by
  have hr : (⟨2, ![M, n]⟩ : Shape).Reduces [1] (⟨1, ![M]⟩ : Shape) := ⟨h'.1, Nat.one_pos, h'.2⟩
  rw [Host.reduce_eq_fold_single FloatOps.maximumf x _ h' hr hu]
  have hb : (constant (F := Ideal) (⟨0, ![]⟩ : Shape) .f32 0xFF800000#32) (Shape.Idx.first hu) = (⊥ : EReal) :=
    Cert.Sage.ofBits_neg_inf
  have hf : (x ∘ hr.lift (ix1 p)) = fun k : Fin n => x (ix2 p k) := funext fun k => congrArg x (lift_row hr p k)
  rw [hb]
  exact congrArg (fun f => Finset.fold max (⊥ : EReal) f (Finset.univ : Finset (Fin n))) hf

/-- From zero the host's sum along the rows is, at row p, the sum of the row. -/
private theorem hostSum_apply (x : FVec Ideal ⟨2, ![M, n]⟩ .f32) (h' : (⟨2, ![M, n]⟩ : Shape).ReducesTo [1] (⟨1, ![M]⟩ : Shape))
    (hu : 0 < (⟨0, ![]⟩ : Shape).numel) (p : Fin M) :
    Host.reduceAdd x (constant (F := Ideal) (⟨0, ![]⟩ : Shape) .f32 0x00000000#32) h' hu (ix1 p) = ∑ k : Fin n, x (ix2 p k) := by
  have hr : (⟨2, ![M, n]⟩ : Shape).Reduces [1] (⟨1, ![M]⟩ : Shape) := ⟨h'.1, Nat.one_pos, h'.2⟩
  show Ideal.hostReduceAdd h' x (Ideal.ofBits .f32 0x00000000#32) (ix1 p) = _
  rw [Ideal.hostReduceAdd_single h' hr, Ideal.ofBits_zero_f32, zero_add]
  exact Finset.sum_congr rfl fun k _ => congrArg x (lift_row hr p k)

end Rows

/-! ## The host's exponential and logarithm at an entry -/

section Unary
variable {s : Shape} {φ : FTy}

/-- The host's exponential at an entry is the exponential of the entry. -/
private theorem hostExp_apply (x : FVec Ideal s φ) (i : s.Idx) : Host.exp x i = Ideal.exp (x i) := rfl

/-- The host's logarithm at an entry is the logarithm of the entry. -/
private theorem hostLog_apply (x : FVec Ideal s φ) (i : s.Idx) : Host.log x i = Ideal.log (x i) := rfl

end Unary
/-! ## The dense layers at an entry -/

/-- The linear part of a hidden layer at (p, q), in the reference's order of summands. -/
private theorem pre128_apply (mean x : (⟨S50000x128, .f32⟩ : BufTy).Contents (Elt Ideal)) (Wl Wr : (⟨S128x128, .f32⟩ : BufTy).Contents (Elt Ideal))
    (b : (⟨S128, .f32⟩ : BufTy).Contents (Elt Ideal)) (p : Fin 50000) (q : Fin 128) :
    pre128 (F := Ideal) mean x Wl Wr b (ix2 p q)
      = ((∑ k : Fin 128, mean (ix2 p k) * Wl (ix2 k q)) + b (ix1 q)) + ∑ k : Fin 128, x (ix2 p k) * Wr (ix2 k q) := by
  unfold pre128
  rw [addf_apply, addf_apply, rowSpread_apply]
  simp only [Host.dotGeneral]
  rw [show dot_S50000x128_S128x128_S50000x128_1_0_0_1_n_n = DotDims.plain 50000 128 128 from rfl,
    dot_plain_apply, dot_plain_apply]

/-- A hidden layer is the clamped sum of the two products and the bias, entry by entry. -/
theorem hidden_eq (mean x : (⟨S50000x128, .f32⟩ : BufTy).Contents (Elt Ideal)) (Wl Wr : (⟨S128x128, .f32⟩ : BufTy).Contents (Elt Ideal))
    (b : (⟨S128, .f32⟩ : BufTy).Contents (Elt Ideal)) :
    hidden (F := Ideal) mean x Wl Wr b = Cert.Sage.layer128 mean x Wl Wr (fun j => b (ix1 j)) := by
  funext i
  obtain ⟨p, q, rfl⟩ : ∃ (p : Fin 50000) (q : Fin 128), i = ix2 p q := ⟨i 0, i 1, eq_ix2 i⟩
  unfold hidden
  rw [maximumf_apply, pre128_apply, splat_apply, constant_apply, Ideal.ofBits_zero_f32, Cert.Sage.add3]
  rfl

/-- The logits are the sum of the two products and the bias, entry by entry. -/
theorem logits_eq (mean x : (⟨S50000x128, .f32⟩ : BufTy).Contents (Elt Ideal)) (Wl Wr : (⟨S128x64, .f32⟩ : BufTy).Contents (Elt Ideal))
    (b : (⟨S64, .f32⟩ : BufTy).Contents (Elt Ideal)) :
    logits (F := Ideal) mean x Wl Wr b = Cert.Sage.lin64 mean x Wl Wr (fun j => b (ix1 j)) := by
  funext i
  obtain ⟨p, q, rfl⟩ : ∃ (p : Fin 50000) (q : Fin 64), i = ix2 p q := ⟨i 0, i 1, eq_ix2 i⟩
  unfold logits
  rw [addf_apply, addf_apply, rowSpread_apply]
  simp only [Host.dotGeneral]
  rw [show dot_S50000x128_S128x64_S50000x64_1_0_0_1_n_n = DotDims.plain 50000 128 64 from rfl,
    dot_plain_apply, dot_plain_apply, Cert.Sage.add3]
  rfl

/-! ## The log-probabilities at an entry -/

/-- The shifted logits at (p, q): the logit less the row's largest. -/
private theorem shifted_apply (h : (⟨S50000x64, .f32⟩ : BufTy).Contents (Elt Ideal)) (p : Fin 50000) (q : Fin 64) :
    shifted (F := Ideal) h (ix2 p q) = h (ix2 p q) - Cert.Sage.rowMax h p := by
  unfold shifted col64
  rw [subf_apply, colSpread_apply, colOf_apply, maximumf_apply, splat_apply, constant_apply, Cert.Sage.ofBits_neg_inf,
    hostMax_apply, max_bot_left]
  rfl

/-- The log-probabilities are the shifted logits minus the logarithm of the row's sum of exponentials, entry by entry. -/
theorem logprob_eq (h : (⟨S50000x64, .f32⟩ : BufTy).Contents (Elt Ideal)) :
    logprob (F := Ideal) h = Cert.Sage.logsm h := by
  funext i
  obtain ⟨p, q, rfl⟩ : ∃ (p : Fin 50000) (q : Fin 64), i = ix2 p q := ⟨i 0, i 1, eq_ix2 i⟩
  unfold logprob
  rw [subf_apply, shifted_apply, colSpread_apply, hostLog_apply, colOf_apply, hostSum_apply]
  simp only [hostExp_apply, shifted_apply]
  rfl

end Cert.ReferenceIdeal.Hand

end
-- ==== Proof.Assemble.lean ====
/-
  The two programs compute one function.

  Kernel side: each region's result array is the dense layer of the arrays it finds at entry, those arrays are the neighbour
  mean (product spelling) of the region before and the arguments, so the two result arrays are the log-probabilities and
  the logits `KV3` of three nested layers. Reference side: the same three layers with the neighbour mean in its quotient
  spelling. The two spellings of the mean are one array (`mean_eq`), and the arguments agree, so the layers agree one after
  the other.
-/
import proofs.«179301_j15247133901327_1_alg».proof.Defs
import proofs.«179301_j15247133901327_1_alg».proof.Proof.Gen.Kernel.Frame
import proofs.«179301_j15247133901327_1_alg».proof.Proof.Gen.Pre_finite_inputs
import proofs.«179301_j15247133901327_1_alg».proof.Proof.KernelRun
import proofs.«179301_j15247133901327_1_alg».proof.Proof.KHost
import proofs.«179301_j15247133901327_1_alg».proof.Proof.Region01
import proofs.«179301_j15247133901327_1_alg».proof.Proof.Region2
import proofs.«179301_j15247133901327_1_alg».proof.Proof.MeanLaw
import proofs.«179301_j15247133901327_1_alg».proof.Proof.RefValue
import proofs.«179301_j15247133901327_1_alg».proof.Proof.RefPoint

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen

/-- A bias vector reshaped to a one-row array, read in that row, is the vector. -/
theorem row128 (b : (⟨S128, .f32⟩ : BufTy).Contents (Elt Ideal)) (j : Fin 128) :
    (shapeCast S1x128 b shapeCasts_S128_S1x128 : (⟨S1x128, .f32⟩ : BufTy).Contents (Elt Ideal)) (ix2 (0 : Fin 1) j) = b (ix1 j) :=
  shapeCast_apply b shapeCasts_S128_S1x128 (ix2 (0 : Fin 1) j) (ix1 j)
    (by rw [Shape.rowMajor_val_two, Shape.rowMajor_val_one]; show j.val = 0 * 128 + j.val; omega)

theorem row64 (b : (⟨S64, .f32⟩ : BufTy).Contents (Elt Ideal)) (j : Fin 64) :
    (shapeCast S1x64 b shapeCasts_S64_S1x64 : (⟨S1x64, .f32⟩ : BufTy).Contents (Elt Ideal)) (ix2 (0 : Fin 1) j) = b (ix1 j) :=
  shapeCast_apply b shapeCasts_S64_S1x64 (ix2 (0 : Fin 1) j) (ix1 j)
    (by rw [Shape.rowMajor_val_two, Shape.rowMajor_val_one]; show j.val = 0 * 64 + j.val; omega)

variable (m : (ℓ : Loc nD τ sig) → Buf (Elt Ideal) ℓ) (ρ : Dev nD → PrngReg)

/-- The first hidden layer's features, from the launch memory. -/
def KV1 (c : Dev nD) : (⟨S50000x128, .f32⟩ : BufTy).Contents (Elt Ideal) :=
  Cert.Sage.layer128 (meanMul (m ((c : Thread nD τ).loc main_arg0)) (m ((c : Thread nD τ).loc main_arg1))) (m ((c : Thread nD τ).loc main_arg0))
    (m ((c : Thread nD τ).loc main_arg2)) (m ((c : Thread nD τ).loc main_arg3)) (fun j => m ((c : Thread nD τ).loc main_arg4) (ix1 j))

/-- The second hidden layer's features. -/
def KV2 (c : Dev nD) : (⟨S50000x128, .f32⟩ : BufTy).Contents (Elt Ideal) :=
  Cert.Sage.layer128 (meanMul (KV1 m c) (m ((c : Thread nD τ).loc main_arg1))) (KV1 m c)
    (m ((c : Thread nD τ).loc main_arg5)) (m ((c : Thread nD τ).loc main_arg6)) (fun j => m ((c : Thread nD τ).loc main_arg7) (ix1 j))

/-- The last layer's logits. -/
def KV3 (c : Dev nD) : (⟨S50000x64, .f32⟩ : BufTy).Contents (Elt Ideal) :=
  Cert.Sage.lin64 (meanMul (KV2 m c) (m ((c : Thread nD τ).loc main_arg1))) (KV2 m c)
    (m ((c : Thread nD τ).loc main_arg8)) (m ((c : Thread nD τ).loc main_arg9)) (fun j => m ((c : Thread nD τ).loc main_arg10) (ix1 j))

/-- What region 0 leaves in its result array. -/
theorem W2_val (c : Dev nD) : W2 m ρ c (Proc.devRef .tc main_v26) = KV1 m c := by
  rw [W2_out, arr0_out, V1_mean, V1_x, V1_wl, V1_wr]
  have hb : (fun j : Fin 128 => V1 m ρ c main_v25 (ix2 (0 : Fin 1) j)) = fun j => m ((c : Thread nD τ).loc main_arg4) (ix1 j) :=
    funext fun j => by rw [V1_bias]; exact row128 _ j
  rw [hb]; rfl

/-- What region 1 leaves in its result array. -/
theorem W4_val (c : Dev nD) : W4 m ρ c (Proc.devRef .tc main_v41) = KV2 m c := by
  rw [W4_out, arr1_out, V3_mean, V3_x, V3_wl, V3_wr, W2_val]
  have hb : (fun j : Fin 128 => V3 m ρ c main_v40 (ix2 (0 : Fin 1) j)) = fun j => m ((c : Thread nD τ).loc main_arg7) (ix1 j) :=
    funext fun j => by rw [V3_bias]; exact row128 _ j
  rw [hb]; rfl

/-- What region 2 finds at its entry, put into the logits' formula. -/
theorem entry2 (c : Dev nD) :
    Cert.Sage.lin64 (V5 m ρ c main_v54) (V5 m ρ c main_v41) (V5 m ρ c main_arg8) (V5 m ρ c main_arg9) (fun j => V5 m ρ c main_v55 (ix2 (0 : Fin 1) j))
      = KV3 m c := by
  rw [V5_mean, V5_x, V5_wl, V5_wr, W4_val]
  have hb : (fun j : Fin 64 => V5 m ρ c main_v55 (ix2 (0 : Fin 1) j)) = fun j => m ((c : Thread nD τ).loc main_arg10) (ix1 j) :=
    funext fun j => by rw [V5_bias]; exact row64 _ j
  rw [hb]; rfl

/-- The kernel's logits array after the run. -/
theorem W6_logits_val (c : Dev nD) : W6 m ρ c (Proc.devRef .tc main_v56_0) = KV3 m c := by
  rw [W6_logits, arr2_logits, entry2]

/-- The kernel's log-probabilities array after the run. -/
theorem W6_logprob_val (c : Dev nD) : W6 m ρ c (Proc.devRef .tc main_v56_1) = Cert.Sage.logsm (KV3 m c) := by
  rw [W6_logprob, arr2_logprob, entry2]

end Cert.KernelIdeal.Hand

namespace Cert.Proof.SageClaims

open Cert.KernelIdeal.Hand Cert.ReferenceIdeal.Hand

/-- The reference's layers are the kernel's: layer by layer, the arguments agreeing, the two spellings of the neighbour
    mean one array. -/
theorem layers_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.H3 m' c = KV3 m c := by
  have e1 : Cert.ReferenceIdeal.Hand.H1 m' c = KV1 m c := by
    unfold Cert.ReferenceIdeal.Hand.H1 KV1 Cert.ReferenceIdeal.Hand.nmean
    rw [hidden_eq, h0, h1, h2, h3, h4, ← mean_eq]
  have e2 : Cert.ReferenceIdeal.Hand.H2 m' c = KV2 m c := by
    unfold Cert.ReferenceIdeal.Hand.H2 KV2 Cert.ReferenceIdeal.Hand.nmean
    rw [hidden_eq, e1, h1, h5, h6, h7, ← mean_eq]
  unfold Cert.ReferenceIdeal.Hand.H3 KV3 Cert.ReferenceIdeal.Hand.nmean
  rw [logits_eq, e2, h1, h8, h9, h10, ← mean_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Hand.run_value (F := Ideal) m ρ)

/-- Both programs end with the log-probabilities and the logits of the same three layers. -/
theorem algebraic : Cert.algebraic_KernelIdeal_ReferenceIdeal := by
  intro m ρ m' ρ' _ hagree
  refine ⟨fun c => Cert.Sage.logsm (KV3 m c), fun c => KV3 m c, ?_, ?_⟩
  · exact (θ_run Cert.KernelIdeal.defs _ _).mono
      (fun r h c => ⟨(h c).1.trans (W6_logprob_val m ρ c), (h c).2.1.trans (W6_logits_val m ρ c), (h c).2.2⟩)
      (Cert.KernelIdeal.GenP.run_named m ρ)
  · refine (θ_run Cert.ReferenceIdeal.defs _ _).mono (fun r h c => ?_) (Cert.ReferenceIdeal.Hand.run_value (F := Ideal) m' ρ')
    obtain ⟨a0, a1, a2, a3, a4, a5, a6, a7, a8, a9, a10⟩ := hagree c
    have e3 := layers_agree m m' c a0 a1 a2 a3 a4 a5 a6 a7 a8 a9 a10
    refine ⟨(h c).1.trans ?_, (h c).2.1.trans e3, (h c).2.2⟩
    rw [logprob_eq, e3]

end Cert.Proof.SageClaims

end
-- ==== Proof.lean ====
/-
  The certificate of a three-layer neighbour-mean network on a graph of 50000 nodes and 800000 edges: the kernel program
  (three row-blocked dense-layer kernels among host gathers and scatter-adds) against the plain reference.

  Every layer forms the neighbour mean — the messages summed into each destination node's row, divided by the number
  of arriving edges clamped below at one — and then (mean·Wl + x·Wr) + bias, clamped below at zero in the two hidden layers;
  the last layer's 64 logits become log-probabilities row by row. The kernel program computes the reciprocal of the clamped
  count once and multiplies by it, the reference divides: over the extended reals both are the product with the inverse
  of a value that is at least one. The kernels feed the matrix unit bf16 copies, which over the extended reals is no change.
  The three summands of a layer are added in another order, which commutativity and associativity allow. No finiteness of
  the inputs is used.

  Frames: the two kernel programs' are the generated ones; the reference's is its run with the results dropped.
  The sanctioned idealization rewrote nothing, so that conjunct is trivial. The value claim is `SageClaims.algebraic`.
-/
import proofs.«179301_j15247133901327_1_alg».proof.Defs
import proofs.«179301_j15247133901327_1_alg».proof.Proof.Gen.Kernel
import proofs.«179301_j15247133901327_1_alg».proof.Proof.Gen.Kernel.Frame
import proofs.«179301_j15247133901327_1_alg».proof.Proof.Gen.KernelIdeal
import proofs.«179301_j15247133901327_1_alg».proof.Proof.Gen.KernelIdeal.Frame
import proofs.«179301_j15247133901327_1_alg».proof.Proof.Gen.ReferenceIdeal
import proofs.«179301_j15247133901327_1_alg».proof.Proof.Gen.Pre_finite_inputs
import proofs.«179301_j15247133901327_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.SageClaims.frame_k, Cert.Proof.SageClaims.frame_ki, Cert.Proof.SageClaims.frame_ri, trivial,
    Cert.Proof.SageClaims.algebraic⟩

end Cert.Proof

end
